-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x512 : Shape := ⟨2, ![65536, 512]⟩
abbrev S64x3 : Shape := ⟨2, ![64, 3]⟩
abbrev S65536 : Shape := ⟨1, ![65536]⟩
abbrev S65536x65 : Shape := ⟨2, ![65536, 65]⟩
abbrev S3x65536x10 : Shape := ⟨3, ![3, 65536, 10]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S65536x65 : S_.BroadcastsInDim S65536x65 (![] : Fin 0 → Fin S65536x65.rank)
  reducesTo_S65536x65_S_d0_1 : S65536x65.ReducesTo [0, 1] S_
  bcast_S_S3x65536x10 : S_.BroadcastsInDim S3x65536x10 (![] : Fin 0 → Fin S3x65536x10.rank)
  reducesTo_S3x65536x10_S_d0_1_2 : S3x65536x10.ReducesTo [0, 1, 2] S_
  bcast_S_S64x3 : S_.BroadcastsInDim S64x3 (![] : Fin 0 → Fin S64x3.rank)
  reducesTo_S64x3_S_d0_1 : S64x3.ReducesTo [0, 1] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg4 : IVec S65536 32) (main_v31 : IVec S_ 1) (main_v32 : IVec S65536 32) : IVec S_ 1 :=
  let main_v33 : IVec S65536 1 := cmpi .sge main_arg4 main_v32
  let main_c_13 : IVec S_ 1 := constantI S_ 1 1#1
  let main_v34 : IVec S_ 1 := (fun x v => Host.reduce IntOp.andi x v reducesTo_S65536_S_d0 h_S_) main_v33 main_c_13
  let main_v35 : IVec S_ 1 := andi main_v31 main_v34
  main_v35

def fn_part1 {F : FTy → Type} [FloatOps F] (main_arg3 : IVec S64x3 32) (main_arg4 : IVec S65536 32) (main_arg6 : FVec F S3x65536x10 .f32) (main_v13 : IVec S_ 1) (main_v16 : IVec S65536x65 1) : IVec S_ 1 :=
  let main_c_5 : IVec S_ 1 := constantI S_ 1 1#1
  let main_v17 : IVec S_ 1 := (fun x v => Host.reduce IntOp.andi x v reducesTo_S65536x65_S_d0_1 h_S_) main_v16 main_c_5
  let main_v18 : IVec S_ 1 := andi main_v13 main_v17
  let main_v19 : FVec F S3x65536x10 .f32 := Host.absf main_arg6
  let main_cst_6 : FVec F S_ .f32 := constant S_ .f32 0x7F800000#32
  let main_v20 : FVec F S3x65536x10 .f32 := broadcastInDim S3x65536x10 ![] bcast_S_S3x65536x10 main_cst_6
  let main_v21 : IVec S3x65536x10 1 := cmpf .olt main_v19 main_v20
  let main_c_7 : IVec S_ 1 := constantI S_ 1 1#1
  let main_v22 : IVec S_ 1 := (fun x v => Host.reduce IntOp.andi x v reducesTo_S3x65536x10_S_d0_1_2 h_S_) main_v21 main_c_7
  let main_v23 : IVec S_ 1 := andi main_v18 main_v22
  let main_c_8 : IVec S_ 32 := constantI S_ 32 0#32
  let main_v24 : IVec S64x3 32 := broadcastInDim S64x3 ![] bcast_S_S64x3 main_c_8
  let main_v25 : IVec S64x3 1 := cmpi .sge main_arg3 main_v24
  let main_c_9 : IVec S_ 1 := constantI S_ 1 1#1
  let main_v26 : IVec S_ 1 := (fun x v => Host.reduce IntOp.andi x v reducesTo_S64x3_S_d0_1 h_S_) main_v25 main_c_9
  let main_v27 : IVec S_ 1 := andi main_v23 main_v26
  let main_c_10 : IVec S_ 32 := constantI S_ 32 10#32
  let main_v28 : IVec S64x3 32 := broadcastInDim S64x3 ![] bcast_S_S64x3 main_c_10
  let main_v29 : IVec S64x3 1 := cmpi .slt main_arg3 main_v28
  let main_c_11 : IVec S_ 1 := constantI S_ 1 1#1
  let main_v30 : IVec S_ 1 := (fun x v => Host.reduce IntOp.andi x v reducesTo_S64x3_S_d0_1 h_S_) main_v29 main_c_11
  let main_v31 : IVec S_ 1 := andi main_v27 main_v30
  let main_c_12 : IVec S_ 32 := constantI S_ 32 0#32
  let main_v32 : IVec S65536 32 := broadcastInDim S65536 ![] bcast_S_S65536 main_c_12
  fn_part2 (F := F) main_arg4 main_v31 main_v32

def fn {F : FTy → Type} [FloatOps F] (main_arg0 : FVec F S65536x128 .f32) (main_arg1 : FVec F S65536x512 .f32) (main_arg2 : FVec F S65536x512 .f32) (main_arg3 : IVec S64x3 32) (main_arg4 : IVec S65536 32) (main_arg5 : FVec F S65536x65 .f32) (main_arg6 : FVec F S3x65536x10 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S65536x65 .f32 := Host.absf main_arg5
  let main_cst_4 : FVec F S_ .f32 := constant S_ .f32 0x7F800000#32
  let main_v15 : FVec F S65536x65 .f32 := broadcastInDim S65536x65 ![] bcast_S_S65536x65 main_cst_4
  let main_v16 : IVec S65536x65 1 := cmpf .olt main_v14 main_v15
  fn_part1 (F := F) main_arg3 main_arg4 main_arg6 main_v13 main_v16
-- ==== Kernel.lean ====
abbrev S65536x128 : Shape := ⟨2, ![65536, 128]⟩
abbrev S65536x512 : Shape := ⟨2, ![65536, 512]⟩
abbrev S64x3 : Shape := ⟨2, ![64, 3]⟩
abbrev S65536 : Shape := ⟨1, ![65536]⟩
abbrev S65536x65 : Shape := ⟨2, ![65536, 65]⟩
abbrev S3x65536x10 : Shape := ⟨3, ![3, 65536, 10]⟩
abbrev S10 : Shape := ⟨1, ![10]⟩
abbrev S3x64 : Shape := ⟨2, ![3, 64]⟩
abbrev S3x64x1 : Shape := ⟨3, ![3, 64, 1]⟩
abbrev S1x1x10 : Shape := ⟨3, ![1, 1, 10]⟩
abbrev S3x64x10 : Shape := ⟨3, ![3, 64, 10]⟩
abbrev S3x10x64 : Shape := ⟨3, ![3, 10, 64]⟩
abbrev S64x1x2 : Shape := ⟨3, ![64, 1, 2]⟩
abbrev S1024x128 : Shape := ⟨2, ![1024, 128]⟩
abbrev S1024x512 : Shape := ⟨2, ![1024, 512]⟩
abbrev S1024x65 : Shape := ⟨2, ![1024, 65]⟩
abbrev S3x1024x10 : Shape := ⟨3, ![3, 1024, 10]⟩
abbrev S1024 : Shape := ⟨1, ![1024]⟩
abbrev S1x1x2 : Shape := ⟨3, ![1, 1, 2]⟩
abbrev S1024x64 : Shape := ⟨2, ![1024, 64]⟩
abbrev S1024x1 : Shape := ⟨2, ![1024, 1]⟩
abbrev S1x1024x10 : Shape := ⟨3, ![1, 1024, 10]⟩
abbrev S1024x10 : Shape := ⟨2, ![1024, 10]⟩
abbrev S1x10x64 : Shape := ⟨3, ![1, 10, 64]⟩
abbrev S10x64 : Shape := ⟨2, ![10, 64]⟩
abbrev S1x64 : Shape := ⟨2, ![1, 64]⟩
abbrev S1 : Shape := ⟨1, ![1]⟩
abbrev S1x1 : Shape := ⟨2, ![1, 1]⟩
abbrev S1x2 : Shape := ⟨2, ![1, 2]⟩
abbrev S64x1x1 : Shape := ⟨3, ![64, 1, 1]⟩
abbrev S64 : Shape := ⟨1, ![64]⟩
abbrev S_ : Shape := ⟨0, ![]⟩

abbrev nBuf : Space → Nat
  | .hbm => 30
  | .vmem => 15
  | .smem => 0
  | _ => 0

abbrev bufTy : (tb : Table) → Fin (tcTables nBuf tb) → BufTy
  | .hbm, ⟨0, _⟩ => ⟨S65536x128, .f32⟩
  | .hbm, ⟨1, _⟩ => ⟨S65536x512, .f32⟩
  | .hbm, ⟨2, _⟩ => ⟨S65536x512, .f32⟩
  | .hbm, ⟨3, _⟩ => ⟨S64x3, .i32⟩
  | .hbm, ⟨4, _⟩ => ⟨S65536, .i32⟩
  | .hbm, ⟨5, _⟩ => ⟨S65536x65, .f32⟩
  | .hbm, ⟨6, _⟩ => ⟨S3x65536x10, .f32⟩
  | .hbm, ⟨7, _⟩ => ⟨S10, .i32⟩
  | .hbm, ⟨8, _⟩ => ⟨S3x64, .i32⟩
  | .hbm, ⟨9, _⟩ => ⟨S3x64x1, .i32⟩
  | .hbm, ⟨10, _⟩ => ⟨S1x1x10, .i32⟩
  | .hbm, ⟨11, _⟩ => ⟨S3x64x10, .i32⟩
  | .hbm, ⟨12, _⟩ => ⟨S3x64x10, .i32⟩
  | .hbm, ⟨13, _⟩ => ⟨S3x64x10, .i1⟩
  | .hbm, ⟨14, _⟩ => ⟨S3x64x10, .f32⟩
  | .hbm, ⟨15, _⟩ => ⟨S3x10x64, .f32⟩
  | .hbm, ⟨16, _⟩ => ⟨S64x1x2, .f32⟩
  | .hbm, ⟨17, _⟩ => ⟨S64x1x1, .f32⟩
  | .hbm, ⟨18, _⟩ => ⟨S64, .f32⟩
  | .hbm, ⟨19, _⟩ => ⟨S64x1x1, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x65, .f32⟩
  | .local _ .vmem, ⟨7, _⟩ => ⟨S1024x65, .f32⟩
  | .local _ .vmem, ⟨8, _⟩ => ⟨S3x1024x10, .f32⟩
  | .local _ .vmem, ⟨9, _⟩ => ⟨S3x1024x10, .f32⟩
  | .local _ .vmem, ⟨10, _⟩ => ⟨S3x10x64, .f32⟩
  | .local _ .vmem, ⟨11, _⟩ => ⟨S1024, .i32⟩
  | .local _ .vmem, ⟨12, _⟩ => ⟨S1024, .i32⟩
  | .local _ .vmem, ⟨13, _⟩ => ⟨S1x1x2, .f32⟩
  | .local _ .vmem, ⟨14, _⟩ => ⟨S1x1x2, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x65 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x10x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S64x3_S3x64_1_0 : S64x3.Transposes [1, 0] S3x64
  bcast_S3x64_S3x64x1_0_1 : S3x64.BroadcastsInDim S3x64x1 (![0, 1] : Fin 2 → Fin S3x64x1.rank)
  bcast_S10_S1x1x10_2 : S10.BroadcastsInDim S1x1x10 (![2] : Fin 1 → Fin S1x1x10.rank)
  bcast_S3x64x1_S3x64x10_0_1_2 : S3x64x1.BroadcastsInDim S3x64x10 (![0, 1, 2] : Fin 3 → Fin S3x64x10.rank)
  bcast_S1x1x10_S3x64x10_0_1_2 : S1x1x10.BroadcastsInDim S3x64x10 (![0, 1, 2] : Fin 3 → Fin S3x64x10.rank)
  transposes_S3x64x10_S3x10x64_0_2_1 : S3x64x10.Transposes [0, 2, 1] S3x10x64
  inb_S1024x65_S1024x65_0_0 : ∀ a, (![0, 0] : Fin 2 → Nat) a + S1024x65.size a ≤ S1024x65.size a
  h_S1024x65 : 0 < S1024x65.numel
  slices_S1024x65_o0_0_S1024x64 : S1024x65.Slices ![0, 0] S1024x64
  reduces_S1024x64_S1024 : S1024x64.Reduces [1] S1024
  shapeCasts_S1024_S1024x1 : S1024.ShapeCasts S1024x1
  broadcasts_S1024x1_S1024x64 : S1024x1.Broadcasts S1024x64
  inb_S3x1024x10_S1x1024x10_0_0_0 : ∀ a, (![0, 0, 0] : Fin 3 → Nat) a + S1x1024x10.size a ≤ S3x1024x10.size a
  h_S1x1024x10 : 0 < S1x1024x10.numel
  shapeCasts_S1x1024x10_S1024x10 : S1x1024x10.ShapeCasts S1024x10
  reduces_S1024x10_S1024 : S1024x10.Reduces [1] S1024
  broadcasts_S1024x1_S1024x10 : S1024x1.Broadcasts S1024x10
  inb_S3x10x64_S1x10x64_0_0_0 : ∀ a, (![0, 0, 0] : Fin 3 → Nat) a + S1x10x64.size a ≤ S3x10x64.size a
  h_S1x10x64 : 0 < S1x10x64.numel
  shapeCasts_S1x10x64_S10x64 : S1x10x64.ShapeCasts S10x64
  slices_S1024x10_o0_0_S1024x1 : S1024x10.Slices ![0, 0] S1024x1
  slices_S10x64_o0_0_S1x64 : S10x64.Slices ![0, 0] S1x64
  broadcasts_S1x64_S1024x64 : S1x64.Broadcasts S1024x64
  slices_S1024x10_o0_1_S1024x1 : S1024x10.Slices ![0, 1] S1024x1
  slices_S10x64_o1_0_S1x64 : S10x64.Slices ![1, 0] S1x64
  slices_S1024x10_o0_2_S1024x1 : S1024x10.Slices ![0, 2] S1024x1
  slices_S10x64_o2_0_S1x64 : S10x64.Slices ![2, 0] S1x64
  slices_S1024x10_o0_3_S1024x1 : S1024x10.Slices ![0, 3] S1024x1
  slices_S10x64_o3_0_S1x64 : S10x64.Slices ![3, 0] S1x64
  slices_S1024x10_o0_4_S1024x1 : S1024x10.Slices ![0, 4] S1024x1
  slices_S10x64_o4_0_S1x64 : S10x64.Slices ![4, 0] S1x64
  slices_S1024x10_o0_5_S1024x1 : S1024x10.Slices ![0, 5] S1024x1
  slices_S10x64_o5_0_S1x64 : S10x64.Slices ![5, 0] S1x64
  slices_S1024x10_o0_6_S1024x1 : S1024x10.Slices ![0, 6] S1024x1
  slices_S10x64_o6_0_S1x64 : S10x64.Slices ![6, 0] S1x64
  slices_S1024x10_o0_7_S1024x1 : S1024x10.Slices ![0, 7] S1024x1
  slices_S10x64_o7_0_S1x64 : S10x64.Slices ![7, 0] S1x64
  slices_S1024x10_o0_8_S1024x1 : S1024x10.Slices ![0, 8] S1024x1
  slices_S10x64_o8_0_S1x64 : S10x64.Slices ![8, 0] S1x64
  slices_S1024x10_o0_9_S1024x1 : S1024x10.Slices ![0, 9] S1024x1
  slices_S10x64_o9_0_S1x64 : S10x64.Slices ![9, 0] S1x64
  inb_S3x1024x10_S1x1024x10_1_0_0 : ∀ a, (![1, 0, 0] : Fin 3 → Nat) a + S1x1024x10.size a ≤ S3x1024x10.size a
  inb_S3x10x64_S1x10x64_1_0_0 : ∀ a, (![1, 0, 0] : Fin 3 → Nat) a + S1x10x64.size a ≤ S3x10x64.size a
  inb_S3x1024x10_S1x1024x10_2_0_0 : ∀ a, (![2, 0, 0] : Fin 3 → Nat) a + S1x1024x10.size a ≤ S3x1024x10.size a
  inb_S3x10x64_S1x10x64_2_0_0 : ∀ a, (![2, 0, 0] : Fin 3 → Nat) a + S1x10x64.size a ≤ S3x10x64.size a
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  inb_S1024_S1024_0 : ∀ a, (![0] : Fin 1 → Nat) a + S1024.size a ≤ S1024.size a
  h_S1024 : 0 < S1024.numel
  iota_S1024x64_d1_w32 : S1024x64.Iotas .tc 32 [1]
  natLt_1_32 : 1 < 32
  reduces_S1024x1_S1 : S1024x1.Reduces [0] S1
  shapeCasts_S1_S1x1 : S1.ShapeCasts S1x1
  concatenates_S1x1_S1x1_S1x2_d1 : Shape.Concatenates [S1x1, S1x1] S1x2 1
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  slices_S64x1x2_S64x1x1_0_0_0 : S64x1x2.Slices ![0, 0, 0] S64x1x1
  shapeCasts_S64x1x1_S64 : S64x1x1.ShapeCasts S64
  slices_S64x1x2_S64x1x1_0_0_1 : S64x1x2.Slices ![0, 0, 1] S64x1x1
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x65.size a ≤ S65536x65.size a
  hwx0_3 : ∀ i : grid0.Coords, EltTy.bits .f32 = 32 ∨ (Rect.block (s := S65536x65) S1024x65.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x1024x10.size a ≤ S3x65536x10.size a
  hwx0_4 : ∀ i : grid0.Coords, EltTy.bits .f32 = 32 ∨ (Rect.block (s := S3x65536x10) S3x1024x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x10x64.size a ≤ S3x10x64.size a
  hwx0_5 : ∀ i : grid0.Coords, EltTy.bits .f32 = 32 ∨ (Rect.block (s := S3x10x64) S3x10x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S65536.size a
  hwx0_6 : ∀ i : grid0.Coords, EltTy.bits .i32 = 32 ∨ (Rect.block (s := S65536) S1024.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2.size a ≤ S64x1x2.size a
  hwx0_7 : ∀ i : grid0.Coords, EltTy.bits .f32 = 32 ∨ (Rect.block (s := S64x1x2) S1x1x2.size (cc0_transform_7 i) (hinb0_7 i)).WholeWords (EltTy.packing .f32)

variable [Facts₀]

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x65.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3x1024x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S3x10x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x512 : Shape := ⟨2, ![65536, 512]⟩
abbrev S64x3 : Shape := ⟨2, ![64, 3]⟩
abbrev S65536 : Shape := ⟨1, ![65536]⟩
abbrev S65536x65 : Shape := ⟨2, ![65536, 65]⟩
abbrev S3x65536x10 : Shape := ⟨3, ![3, 65536, 10]⟩
abbrev S65536x64 : Shape := ⟨2, ![65536, 64]⟩
abbrev S_ : Shape := ⟨0, ![]⟩
abbrev S65536x1 : Shape := ⟨2, ![65536, 1]⟩
abbrev S3x65536 : Shape := ⟨2, ![3, 65536]⟩
abbrev S3x65536x1 : Shape := ⟨3, ![3, 65536, 1]⟩
abbrev S3x64 : Shape := ⟨2, ![3, 64]⟩
abbrev S3x64x1 : Shape := ⟨3, ![3, 64, 1]⟩
abbrev S3x65536x64 : Shape := ⟨3, ![3, 65536, 64]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x512, .f32⟩
  | .hbm, ⟨2, _⟩ => ⟨S65536x512, .f32⟩
  | .hbm, ⟨3, _⟩ => ⟨S64x3, .i32⟩
  | .hbm, ⟨4, _⟩ => ⟨S65536, .i32⟩
  | .hbm, ⟨5, _⟩ => ⟨S65536x65, .f32⟩
  | .hbm, ⟨6, _⟩ => ⟨S3x65536x10, .f32⟩
  | .hbm, ⟨7, _⟩ => ⟨S65536x64, .f32⟩
  | .hbm, ⟨8, _⟩ => ⟨S_, .f32⟩
  | .hbm, ⟨9, _⟩ => ⟨S65536, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S65536x1, .f32⟩
  | .hbm, ⟨14, _⟩ => ⟨S65536x64, .f32⟩
  | .hbm, ⟨15, _⟩ => ⟨S65536x64, .f32⟩
  | .hbm, ⟨16, _⟩ => ⟨S65536x64, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S65536x64, .f32⟩
  | .hbm, ⟨21, _⟩ => ⟨S65536x64, .f32⟩
  | .hbm, ⟨22, _⟩ => ⟨S_, .f32⟩
  | .hbm, ⟨23, _⟩ => ⟨S3x65536, .f32⟩
  | .hbm, ⟨24, _⟩ => ⟨S_, .f32⟩
  | .hbm, ⟨25, _⟩ => ⟨S3x65536, .f32⟩
  | .hbm, ⟨26, _⟩ => ⟨S3x65536, .f32⟩
  | .hbm, ⟨27, _⟩ => ⟨S3x65536x1, .f32⟩
  | .hbm, ⟨28, _⟩ => ⟨S3x65536x10, .f32⟩
  | .hbm, ⟨29, _⟩ => ⟨S3x65536x10, .f32⟩
  | .hbm, ⟨30, _⟩ => ⟨S3x65536x10, .f32⟩
  | .hbm, ⟨31, _⟩ => ⟨S_, .f32⟩
  | .hbm, ⟨32, _⟩ => ⟨S3x65536, .f32⟩
  | .hbm, ⟨33, _⟩ => ⟨S3x65536x1, .f32⟩
  | .hbm, ⟨34, _⟩ => ⟨S3x65536x10, .f32⟩
  | .hbm, ⟨35, _⟩ => ⟨S3x65536x10, .f32⟩
  | .hbm, ⟨36, _⟩ => ⟨S_, .f32⟩
  | .hbm, ⟨37, _⟩ => ⟨S3x65536x10, .f32⟩
  | .hbm, ⟨38, _⟩ => ⟨S3x65536x10, .f32⟩
  | .hbm, ⟨39, _⟩ => ⟨S3x65536x10, .f32⟩
  | .hbm, ⟨40, _⟩ => ⟨S3x64, .i32⟩
  | .hbm, ⟨41, _⟩ => ⟨S_, .i32⟩
  | .hbm, ⟨42, _⟩ => ⟨S3x64, .i32⟩
  | .hbm, ⟨43, _⟩ => ⟨S3x64, .i1⟩
  | .hbm, ⟨44, _⟩ => ⟨S_, .i32⟩
  | .hbm, ⟨45, _⟩ => ⟨S3x64, .i32⟩
  | .hbm, ⟨46, _⟩ => ⟨S3x64, .i32⟩
  | .hbm, ⟨47, _⟩ => ⟨S3x64, .i32⟩
  | .hbm, ⟨48, _⟩ => ⟨S3x64x1, .i32⟩
  | .hbm, ⟨49, _⟩ => ⟨S3x65536x64, .f32⟩
  | .hbm, ⟨50, _⟩ => ⟨S_, .f32⟩
  | .hbm, ⟨51, _⟩ => ⟨S65536x64, .f32⟩
  | .hbm, ⟨52, _⟩ => ⟨S65536x128, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S65536x1, .f32⟩
  | .hbm, ⟨60, _⟩ => ⟨S65536x512, .f32⟩
  | .hbm, ⟨61, _⟩ => ⟨S65536x512, .f32⟩
  | .hbm, ⟨62, _⟩ => ⟨S_, .f32⟩
  | .hbm, ⟨63, _⟩ => ⟨S65536, .f32⟩
  | .hbm, ⟨64, _⟩ => ⟨S65536x1, .f32⟩
  | .hbm, ⟨65, _⟩ => ⟨S_, .f32⟩
  | .hbm, ⟨66, _⟩ => ⟨S65536x1, .f32⟩
  | .hbm, ⟨67, _⟩ => ⟨S65536x1, .f32⟩
  | .hbm, ⟨68, _⟩ => ⟨S65536x1, .f32⟩
  | .hbm, ⟨69, _⟩ => ⟨S65536x64, .f32⟩
  | .hbm, ⟨70, _⟩ => ⟨S65536x64, .f32⟩
  | .hbm, ⟨71, _⟩ => ⟨S65536x64, .f32⟩
  | .hbm, ⟨72, _⟩ => ⟨S65536x64, .f32⟩
  | .hbm, ⟨73, _⟩ => ⟨S_, .f32⟩
  | .hbm, ⟨74, _⟩ => ⟨S65536x64, .f32⟩
  | .hbm, ⟨75, _⟩ => ⟨S65536x64, .f32⟩
  | .hbm, ⟨76, _⟩ => ⟨S65536x64, .f32⟩
  | .hbm, ⟨77, _⟩ => ⟨S65536x64, .f32⟩
  | .hbm, ⟨78, _⟩ => ⟨S65536x64, .f32⟩
  | .hbm, ⟨79, _⟩ => ⟨S_, .i32⟩
  | .hbm, ⟨80, _⟩ => ⟨S65536, .i32⟩
  | .hbm, ⟨81, _⟩ => ⟨S65536, .i1⟩
  | .hbm, ⟨82, _⟩ => ⟨S_, .i32⟩
  | .hbm, ⟨83, _⟩ => ⟨S_, .i32⟩
  | .hbm, ⟨84, _⟩ => ⟨S65536, .i32⟩
  | .hbm, ⟨85, _⟩ => ⟨S65536, .i32⟩
  | .hbm, ⟨86, _⟩ => ⟨S65536x1, .i32⟩
  | .hbm, ⟨87, _⟩ => ⟨S_, .i32⟩
  | .hbm, ⟨88, _⟩ => ⟨S65536x1, .i32⟩
  | .hbm, ⟨89, _⟩ => ⟨S65536x1, .i1⟩
  | .hbm, ⟨90, _⟩ => ⟨S_, .i32⟩
  | .hbm, ⟨91, _⟩ => ⟨S65536x1, .i32⟩
  | .hbm, ⟨92, _⟩ => ⟨S65536x1, .i32⟩
  | .hbm, ⟨93, _⟩ => ⟨S65536x1, .i32⟩
  | .hbm, ⟨94, _⟩ => ⟨S65536x1x1, .i32⟩
  | .hbm, ⟨95, _⟩ => ⟨S1, .i32⟩
  | .hbm, ⟨96, _⟩ => ⟨S_, .i32⟩
  | .hbm, ⟨97, _⟩ => ⟨S65536x1x1, .i32⟩
  | .hbm, ⟨98, _⟩ => ⟨S65536x1x1, .i1⟩
  | .hbm, ⟨99, _⟩ => ⟨S1x1x1, .i32⟩
  | .hbm, ⟨100, _⟩ => ⟨S65536x1x1, .i32⟩
  | .hbm, ⟨101, _⟩ => ⟨S65536x1x1, .i1⟩
  | .hbm, ⟨102, _⟩ => ⟨S65536x1x1, .i1⟩
  | .hbm, ⟨103, _⟩ => ⟨S_, .i1⟩
  | .hbm, ⟨104, _⟩ => ⟨S65536x1, .i1⟩
  | .hbm, ⟨105, _⟩ => ⟨S65536x1, .f32⟩
  | .hbm, ⟨106, _⟩ => ⟨S_, .f32⟩
  | .hbm, ⟨107, _⟩ => ⟨S65536x1, .f32⟩
  | .hbm, ⟨108, _⟩ => ⟨S65536x1, .f32⟩
  | .hbm, ⟨109, _⟩ => ⟨S65536, .f32⟩
  | .hbm, ⟨110, _⟩ => ⟨S_, .f32⟩
  | .hbm, ⟨111, _⟩ => ⟨S_, .f32⟩
  | .hbm, ⟨112, _⟩ => ⟨S65536, .f32⟩
  | .hbm, ⟨113, _⟩ => ⟨S65536, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S65536, .i32⟩
  | .hbm, ⟨118, _⟩ => ⟨S_, .i32⟩
  | .hbm, ⟨119, _⟩ => ⟨S_, .i32⟩
  | .hbm, ⟨120, _⟩ => ⟨S_, .f32⟩
  | .hbm, ⟨121, _⟩ => ⟨S_, .f32⟩
  | .hbm, ⟨122, _⟩ => ⟨S_, .i1⟩
  | .hbm, ⟨123, _⟩ => ⟨S_, .f32⟩
  | .hbm, ⟨124, _⟩ => ⟨S_, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_call0_v0 : Ref sig .tc := ⟨.hbm, 83, rfl⟩
abbrev main_call0_v1 : Ref sig .tc := ⟨.hbm, 84, rfl⟩
abbrev main_v59 : Ref sig .tc := ⟨.hbm, 85, rfl⟩
abbrev main_v60 : Ref sig .tc := ⟨.hbm, 86, rfl⟩
abbrev main_call1_c : Ref sig .tc := ⟨.hbm, 87, rfl⟩
abbrev main_call1_v0 : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_c_1 : Ref sig .tc := ⟨.hbm, 95, rfl⟩
abbrev main_call1_c_2 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_3 : Ref sig .tc := ⟨.hbm, 103, rfl⟩
abbrev main_call1_v12 : Ref sig .tc := ⟨.hbm, 104, rfl⟩
abbrev main_call1_v13 : Ref sig .tc := ⟨.hbm, 105, rfl⟩
abbrev main_call1_cst : Ref sig .tc := ⟨.hbm, 106, rfl⟩
abbrev main_call1_v14 : Ref sig .tc := ⟨.hbm, 107, rfl⟩
abbrev main_v61 : Ref sig .tc := ⟨.hbm, 108, rfl⟩
abbrev main_v62 : Ref sig .tc := ⟨.hbm, 109, rfl⟩
abbrev main_cst_15 : Ref sig .tc := ⟨.hbm, 110, rfl⟩
abbrev main_call2_v0 : Ref sig .tc := ⟨.hbm, 111, rfl⟩
abbrev main_call2_v1 : Ref sig .tc := ⟨.hbm, 112, rfl⟩
abbrev main_v63 : Ref sig .tc := ⟨.hbm, 113, rfl⟩
abbrev main_cst_16 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_c_17 : Ref sig .tc := ⟨.hbm, 118, rfl⟩
abbrev main_v67 : Ref sig .tc := ⟨.hbm, 119, rfl⟩
abbrev main_v68 : Ref sig .tc := ⟨.hbm, 120, rfl⟩
abbrev main_cst_18 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩

abbrev nD : Nat := 1
abbrev τ : Topo := Topo.v7x

variable {F : FTy → Type} [FloatOps F]

class Facts₀ : Prop where
  slices_S65536x65_S65536x64_0_0 : S65536x65.Slices ![0, 0] S65536x64
  reducesTo_S65536x64_S65536_d1 : S65536x64.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  reducesTo_S3x65536x10_S3x65536_d2 : S3x65536x10.ReducesTo [2] S3x65536
  bcast_S_S3x65536 : S_.BroadcastsInDim S3x65536 (![] : Fin 0 → Fin S3x65536.rank)
  bcast_S3x65536_S3x65536x1_0_1 : S3x65536.BroadcastsInDim S3x65536x1 (![0, 1] : Fin 2 → Fin S3x65536x1.rank)
  bcast_S3x65536x1_S3x65536x10_0_1_2 : S3x65536x1.BroadcastsInDim S3x65536x10 (![0, 1, 2] : Fin 3 → Fin S3x65536x10.rank)
  bcast_S_S3x65536x10 : S_.BroadcastsInDim S3x65536x10 (![] : Fin 0 → Fin S3x65536x10.rank)
  transposes_S64x3_S3x64_1_0 : S64x3.Transposes [1, 0] S3x64
  bcast_S_S3x64 : S_.BroadcastsInDim S3x64 (![] : Fin 0 → Fin S3x64.rank)
  bcast_S3x64_S3x64x1_0_1 : S3x64.BroadcastsInDim S3x64x1 (![0, 1] : Fin 2 → Fin S3x64x1.rank)
  reducesTo_S3x65536x64_S65536x64_d0 : S3x65536x64.ReducesTo [0] S65536x64
  reducesTo_S65536x128_S65536_d1 : S65536x128.ReducesTo [1] S65536
  bcast_S_S65536x1 : S_.BroadcastsInDim S65536x1 (![] : Fin 0 → Fin S65536x1.rank)
  reducesTo_S65536x512_S65536_d1 : S65536x512.ReducesTo [1] S65536
  bcast_S_S65536x64 : S_.BroadcastsInDim S65536x64 (![] : Fin 0 → Fin S65536x64.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536_S_d0 : S65536.ReducesTo [0] S_
  natLt_1_32 : 1 < 32
  gather_S3x65536x10_S3x64x1_S3x65536x64_1_2_0_0_2_2_1655361_wf : GatherDims.WF S3x65536x10 S3x64x1 S3x65536x64 [1] [2] [0] [2] [0] 2 ![1, 65536, 1]
  gather_S65536x64_S65536x1x1_S65536x1_n_1_0_0_1_2_11_wf : GatherDims.WF S65536x64 S65536x1x1 S65536x1 [] [1] [0] [1] [0] 2 ![1, 1]

variable [Facts₀]

def gather_S3x65536x10_S3x64x1_S3x65536x64_1_2_0_0_2_2_1655361 : GatherDims S3x65536x10 S3x64x1 S3x65536x64 where
  offsetDims := [1]
  collapsedSliceDims := [2]
  operandBatchingDims := [0]
  startIndicesBatchingDims := [0]
  startIndexMap := [2]
  indexVectorDim := 2
  sliceSizes := ![1, 65536, 1]
  wf := gather_S3x65536x10_S3x64x1_S3x65536x64_1_2_0_0_2_2_1655361_wf
def gather_S65536x64_S65536x1x1_S65536x1_n_1_0_0_1_2_11 : GatherDims S65536x64 S65536x1x1 S65536x1 where
  offsetDims := []
  collapsedSliceDims := [1]
  operandBatchingDims := [0]
  startIndicesBatchingDims := [0]
  startIndexMap := [1]
  indexVectorDim := 2
  sliceSizes := ![1, 1]
  wf := gather_S65536x64_S65536x1x1_S65536x1_n_1_0_0_1_2_11_wf

class Facts : Prop extends Facts₀ where

variable [Facts]
-- ==== Proof.PreFacts.lean ====
/-
  What the precondition says of the two integer inputs: every entry of valid_cp is a position 0 … 9, and every
  label is non-negative (as a signed word: below 2^31 as a natural number).
-/
import proofs.«405782_j55946243997877_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

variable [Cert.Pre_finite_inputs.Facts]

/-- The scalar shape has one index. -/
local instance subsingletonScalarIdx : Subsingleton S_.Idx := ⟨fun a b => funext fun d => d.elim0⟩

/-- A word that tests non-negative as a signed number reads below 2^31 as a natural number. -/
theorem toNat_lt_of_sge_zero (w : BitVec 32) (h0 : IntOp.cmpi .sge w 0#32 = 1#1) : w.toNat < 2 ^ 31 := by
  rw [IntOp.cmpi_sge, show (0#32 : BitVec 32).toInt = 0 from by decide] at h0
  have hc := BitVec.toInt_eq_toNat_cond w
  have hl := w.isLt
  split at hc <;> omega

/-- A word in [0, n) as a signed number is below n as a natural number. -/
theorem toNat_lt_of_signed_range (w : BitVec 32) (n : Nat) (hn : n < 2 ^ 31) (h0 : IntOp.cmpi .sge w 0#32 = 1#1)
    (h1 : IntOp.cmpi .slt w (BitVec.ofNat 32 n) = 1#1) : w.toNat < n := by
  have hw := toNat_lt_of_sge_zero w h0
  rw [IntOp.cmpi_slt, StableHlo.Predicate.toInt_ofNat_small n hn, StableHlo.Predicate.toInt_eq_toNat_of_lt hw] at h1
  omega

/-- The three integer conjuncts of the precondition, each read at an element: the precondition is a conjunction of eight
    tests, each the conjunction over all entries of one comparison; the last three compare valid_cp with 0 and with 10 and
    the labels with 0 (a scalar constant spread over the array reads as that constant at every entry). -/
theorem int_conjuncts (a0 : FVec Ideal S65536x128 .f32) (a1 a2 : FVec Ideal S65536x512 .f32) (a3 : IVec S64x3 32) (a4 : IVec S65536 32)
    (a5 : FVec Ideal S65536x65 .f32) (a6 : FVec Ideal S3x65536x10 .f32)
    (h : Cert.Pre_finite_inputs.fn (F := Ideal) a0 a1 a2 a3 a4 a5 a6 = fun _ => 1#1) :
    (∀ i : S64x3.Idx, IntOp.cmpi .sge (a3 i) 0#32 = 1#1) ∧ (∀ i : S64x3.Idx, IntOp.cmpi .slt (a3 i) 10#32 = 1#1)
      ∧ (∀ i : S65536.Idx, IntOp.cmpi .sge (a4 i) 0#32 = 1#1) := by
  have h0 := congrFun h ValueIdx.ix0
  obtain ⟨h31, h34⟩ := IntOp.andi_eq_one.1 h0
  obtain ⟨h27, h30⟩ := IntOp.andi_eq_one.1 h31
  obtain ⟨-, h26⟩ := IntOp.andi_eq_one.1 h27
  exact ⟨fun i => Host.reduce_andi_all _ _ _ _ _ h26 i, fun i => Host.reduce_andi_all _ _ _ _ _ h30 i,
    fun i => Host.reduce_andi_all _ _ _ _ _ h34 i⟩

/-- Under the precondition every entry of valid_cp is below 10 (and non-negative). -/
theorem vcp_lt (a0 : FVec Ideal S65536x128 .f32) (a1 a2 : FVec Ideal S65536x512 .f32) (a3 : IVec S64x3 32) (a4 : IVec S65536 32)
    (a5 : FVec Ideal S65536x65 .f32) (a6 : FVec Ideal S3x65536x10 .f32)
    (h : Cert.Pre_finite_inputs.fn (F := Ideal) a0 a1 a2 a3 a4 a5 a6 = fun _ => 1#1) :
    ∀ i : S64x3.Idx, (a3 i).toNat < 10 := by
  obtain ⟨hge, hlt, -⟩ := int_conjuncts a0 a1 a2 a3 a4 a5 a6 h
  exact fun i => toNat_lt_of_signed_range (a3 i) 10 (by decide) (hge i) (hlt i)

/-- Under the precondition every label is non-negative. -/
theorem y_nonneg (a0 : FVec Ideal S65536x128 .f32) (a1 a2 : FVec Ideal S65536x512 .f32) (a3 : IVec S64x3 32) (a4 : IVec S65536 32)
    (a5 : FVec Ideal S65536x65 .f32) (a6 : FVec Ideal S3x65536x10 .f32)
    (h : Cert.Pre_finite_inputs.fn (F := Ideal) a0 a1 a2 a3 a4 a5 a6 = fun _ => 1#1) :
    ∀ i : S65536.Idx, (a4 i).toNat < 2 ^ 31 := by
  obtain ⟨-, -, hy⟩ := int_conjuncts a0 a1 a2 a3 a4 a5 a6 h
  exact fun i => toNat_lt_of_sge_zero (a4 i) (hy i)

end Cert.PreFacts

end
-- ==== Proof.Spec.lean ====
/-
  The loss both programs compute, as one function of the seven argument arrays.

  Row b of the batch (65536 rows) contributes, when its label y = Y b is a class below 64,
      loss b y = jp b y · exp(-½ ‖X b - X̂ b‖²) · exp(-½ ‖Z b‖²) · (log (jp b y + ε) - Σ_d lsm d b (vcp y d)),
  where jp b is the softmax of the first 64 joint logits of the row, lsm d b the logarithm (shifted by ε) of the
  softmax of the row's ten logits of dimension d, and vcp y d the position the class takes in dimension d.
  The result is |Σ_b contribution b| divided by the number of rows with a label below 64 (undivided when there is none).
  Everything is on the extended reals; the softmax is written with the very shift both programs subtract
  (the maximum of the family, joined with the -∞ pattern), so no law of exp is needed to compare them.
-/
import Idealize.ShloMosaic.PureOps.Ideal
import Idealize.ShloMosaic.Lib.ValueIdx
import Mathlib.Algebra.BigOperators.Fin
import Mathlib.Logic.Equiv.Fin.Basic

noncomputable section

namespace Cert.LossSpec

open Idealize.ShloMosaic Idealize.ShloMosaic.ValueIdx

/-- The shift of a softmax: the family's maximum, as a fold from the -∞ pattern, joined once more with that pattern. -/
def shift {n : ℕ} (x : Fin n → EReal) : EReal :=
  max (Ideal.ofBits .f32 0xFF800000#32) ((Finset.univ : Finset (Fin n)).fold max (Ideal.ofBits .f32 0xFF800000#32) x)

/-- Entry j of the softmax of a finite family. -/
def softmaxAt {n : ℕ} (x : Fin n → EReal) (j : Fin n) : EReal :=
  Ideal.div (Ideal.exp (x j - shift x)) (∑ k : Fin n, Ideal.exp (x k - shift x))

/-- Entry j of log (softmax + ε), ε the f32 nearest 1e-8. -/
def logSoftmaxAt {n : ℕ} (x : Fin n → EReal) (j : Fin n) : EReal :=
  Ideal.log (softmaxAt x j + Ideal.ofBits .f32 0x322BCC77#32)

/-- exp(-½ Σ x²). -/
def gaussAt {n : ℕ} (x : Fin n → EReal) : EReal :=
  Ideal.exp (Ideal.ofBits .f32 0xBF000000#32 * ∑ j : Fin n, x j * x j)

/-- The entry of a family a 32-bit word names, zero when the word names none. -/
def pick {n : ℕ} (f : Fin n → EReal) (v : BitVec 32) : EReal :=
  if h : v.toNat < n then f ⟨v.toNat, h⟩ else 0

/-- A word against a position: 1 when the word is that position, else 0. -/
def hot (v : BitVec 32) (k : ℕ) : EReal := if v = BitVec.ofNat 32 k then 1 else 0

/-- Summing a family against a word's indicator picks the entry the word names. -/
theorem sum_mul_hot {n : ℕ} (hn : n < 2 ^ 32) (f : Fin n → EReal) (v : BitVec 32) :
    ∑ k : Fin n, f k * hot v k.val = pick f v := by
  unfold pick hot
  have key : ∀ k : Fin n, v = BitVec.ofNat 32 k.val ↔ v.toNat = k.val := by
    intro k
    have hk : k.val < 2 ^ 32 := lt_trans k.isLt hn
    constructor
    · intro e; rw [e, BitVec.toNat_ofNat, Nat.mod_eq_of_lt hk]
    · intro e; rw [← e, BitVec.ofNat_toNat, BitVec.setWidth_eq]
  by_cases h : v.toNat < n
  · rw [dif_pos h, Finset.sum_eq_single (⟨v.toNat, h⟩ : Fin n)]
    · rw [if_pos ((key ⟨v.toNat, h⟩).mpr rfl), mul_one]
    · intro k _ hk
      rw [if_neg (fun e => hk (Fin.ext ((key k).mp e).symm)), mul_zero]
    · intro hk; exact absurd (Finset.mem_univ _) hk
  · rw [dif_neg h]
    refine Finset.sum_eq_zero fun k _ => ?_
    rw [if_neg (fun e => h (by rw [(key k).mp e]; exact k.isLt)), mul_zero]

/-- A sum over the 65536 rows, regrouped as 64 tiles of 1024 consecutive rows. -/
theorem sum_rows_tiles {M : Type*} [AddCommMonoid M] (f : Fin 65536 → M) :
    ∑ b : Fin 65536, f b = ∑ t : Fin 64, ∑ r : Fin 1024, f ⟨t.val * 1024 + r.val, by have := t.isLt; have := r.isLt; omega⟩ := by
  show ∑ b : Fin (64 * 1024), f b = _
  rw [← Equiv.sum_comp (finProdFinEquiv (m := 64) (n := 1024)) f, Fintype.sum_prod_type]
  refine Finset.sum_congr rfl fun t _ => Finset.sum_congr rfl fun r _ => ?_
  refine congrArg f (Fin.ext ?_)
  show r.val + 1024 * t.val = t.val * 1024 + r.val
  omega

section Arrays

variable (Z : (⟨2, ![65536, 128]⟩ : Shape).Idx → EReal) (X Xh : (⟨2, ![65536, 512]⟩ : Shape).Idx → EReal)
  (vcp : (⟨2, ![64, 3]⟩ : Shape).Idx → BitVec 32) (Y : (⟨1, ![65536]⟩ : Shape).Idx → BitVec 32)
  (JP : (⟨2, ![65536, 65]⟩ : Shape).Idx → EReal) (PP : (⟨3, ![3, 65536, 10]⟩ : Shape).Idx → EReal)

/-- The joint softmax of row b over its first 64 logits. -/
def jpAt (b : Fin 65536) (c : Fin 64) : EReal :=
  softmaxAt (fun c' : Fin 64 => JP (ix2 b (⟨c'.val, by have := c'.isLt; omega⟩ : Fin 65))) c

/-- log (softmax + ε) of row b's ten logits in dimension d. -/
def lsmAt (d : Fin 3) (b : Fin 65536) (k : Fin 10) : EReal :=
  logSoftmaxAt (fun k' : Fin 10 => PP (ix3 d b k')) k

/-- Σ_d lsm d b (vcp c d). -/
def logProdsAt (b : Fin 65536) (c : Fin 64) : EReal :=
  ∑ d : Fin 3, pick (fun k : Fin 10 => lsmAt PP d b k) (vcp (ix2 c d))

def fzAt (b : Fin 65536) : EReal := gaussAt (fun j : Fin 128 => Z (ix2 b j))

def xzAt (b : Fin 65536) : EReal := gaussAt (fun j : Fin 512 => X (ix2 b j) - Xh (ix2 b j))

/-- Entry (b, c) of the loss matrix. -/
def lossAt (b : Fin 65536) (c : Fin 64) : EReal :=
  ((jpAt JP b c * xzAt X Xh b) * fzAt Z b)
    * (Ideal.log (jpAt JP b c + Ideal.ofBits .f32 0x322BCC77#32) - logProdsAt vcp PP b c)

/-- Row b's contribution: the loss at its label when the label is a class, else 0. -/
def rowTerm (b : Fin 65536) : EReal :=
  pick (fun c : Fin 64 => lossAt Z X Xh vcp JP PP b c) (Y (ix1 b))

/-- 1 when row b's label is a class, else 0. -/
def rowMask (b : Fin 65536) : EReal := if (Y (ix1 b)).toNat < 64 then 1 else 0

def total : EReal := ∑ b : Fin 65536, rowTerm Z X Xh vcp Y JP PP b

def count : EReal := ∑ b : Fin 65536, rowMask Y b

/-- Tile t (1024 consecutive rows): the sum of its rows' contributions, and the number of its rows with a class label. -/
def tileSum (t : Fin 64) : EReal :=
  ∑ r : Fin 1024, rowTerm Z X Xh vcp Y JP PP ⟨t.val * 1024 + r.val, by have := t.isLt; have := r.isLt; omega⟩

def tileCnt (t : Fin 64) : EReal :=
  ∑ r : Fin 1024, rowMask Y ⟨t.val * 1024 + r.val, by have := t.isLt; have := r.isLt; omega⟩

/-- The kernel's [64, 1, 2] array of per-tile partial results: entry (t, 0, 0) the tile's sum, (t, 0, 1) its count. -/
def tileOut (i : (⟨3, ![64, 1, 2]⟩ : Shape).Idx) : EReal :=
  if (i 2).val = 0 then tileSum Z X Xh vcp Y JP PP ⟨(i 0).val, (i 0).isLt⟩ else tileCnt Y ⟨(i 0).val, (i 0).isLt⟩

theorem total_eq_tiles : total Z X Xh vcp Y JP PP = ∑ t : Fin 64, tileSum Z X Xh vcp Y JP PP t :=
  sum_rows_tiles _

theorem count_eq_tiles : count Y = ∑ t : Fin 64, tileCnt Y t :=
  sum_rows_tiles _

end Arrays

/-- The last step of both programs: |S| / cnt when cnt > 0, else |S|. -/
def closing (S cnt : EReal) : EReal :=
  Scalar.select (Ideal.cmp .ogt cnt (Ideal.ofBits .f32 0x00000000#32)) (Ideal.div (max S (-S)) cnt) (max S (-S))

end Cert.LossSpec

end
-- ==== Proof.KerSoft.lean ====
/-
  The kernel body's row-wise pieces read at an index: the joint softmax of a [1024, 65] block's first 64 columns,
  the log-softmax (shifted by ε) of a [1, 1024, 10] slab — the body computes it three times, cut differently each
  time —, and a row's sum of squares.
-/
import proofs.«405782_j55946243997877_3_alg».proof.Proof.Gen.KernelIdeal.Skeleton
import proofs.«405782_j55946243997877_3_alg».proof.Proof.Spec
import Idealize.ShloMosaic.Lib.Pipeline.Value
import Idealize.ShloMosaic.Lib.ValueLayout
import Idealize.ShloMosaic.PureOps.Ideal.Laws

noncomputable section

namespace Cert.KerSide

open Cert.KernelIdeal Cert.KernelIdeal.Gen Cert.LossSpec Idealize.ShloMosaic Idealize.ShloMosaic.ValueIdx

/-! ## Rows of a matrix: the reductions along a row, and a column of row values spread back over the rows -/

section Rows

variable {m n : ℕ}

/-- The source index a reduction along the rows reads: row `r` with column `k` inserted. -/
theorem lift_row (h : (⟨2, ![m, n]⟩ : Shape).Reduces [1] ⟨1, ![m]⟩) (r : Fin m) (k : Fin n) :
    h.lift (ix1 r) k = ix2 r k :=
  funext fun a => Fin.ext (match a with | ⟨0, _⟩ => rfl | ⟨1, _⟩ => rfl)

/-- A row maximum at row `r`: the fold of `max` over the row, from the accumulator's value. -/
theorem rowMax_apply (v : FVec Ideal ⟨2, ![m, n]⟩ .f32) (acc : BitVec FTy.f32.bits)
    (h : (⟨2, ![m, n]⟩ : Shape).Reduces [1] ⟨1, ![m]⟩) (hφ : FKind.Formats .f32)
    (hacc : acc = FKind.maximumf.neutral .f32 hφ) (r : Fin m) :
    multiReduction .maximumf [1] ⟨1, ![m]⟩ v acc h hφ hacc (ix1 r)
      = (Finset.univ : Finset (Fin n)).fold max (Ideal.ofBits .f32 acc) (fun k => v (ix2 r k)) :=
  (Ideal.multiReduction_maximumf_single v acc h hφ hacc (ix1 r)).trans
    (congrArg ((Finset.univ : Finset (Fin n)).fold max (Ideal.ofBits .f32 acc))
      (funext fun k => congrArg v (lift_row h r k)))

/-- A row sum at row `r`: the sum over the row. -/
theorem rowSum_apply (v : FVec Ideal ⟨2, ![m, n]⟩ .f32) (acc : BitVec FTy.f32.bits)
    (h : (⟨2, ![m, n]⟩ : Shape).Reduces [1] ⟨1, ![m]⟩) (hφ : FKind.Formats .f32)
    (hacc : acc = FKind.add.neutral .f32 hφ) (r : Fin m) :
    multiReduction .add [1] ⟨1, ![m]⟩ v acc h hφ hacc (ix1 r) = ∑ k : Fin n, v (ix2 r k) :=
  (Ideal.multiReduction_add_single v acc h hφ hacc (ix1 r)).trans
    (Finset.sum_congr rfl fun k _ => congrArg v (lift_row h r k))

/-- A vector of row values, cast to a column and spread over the rows, reads at `(r, c)` the value of row `r`. -/
theorem keepdims_apply {α : Type} (w : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (r : Fin m) (c : Fin n) :
    broadcastTo ⟨2, ![m, n]⟩ (shapeCast ⟨2, ![m, 1]⟩ w hc) hb (ix2 r c) = w (ix1 r) := by
  refine (broadcastTo_apply _ hb (ix2 r c) (ix2 r (0 : Fin 1)) fun a => ?_).trans ?_
  · match a with
    | ⟨0, _⟩ =>
      show r.val = if m = 1 then 0 else r.val
      have := r.isLt
      split <;> omega
    | ⟨1, _⟩ =>
      show 0 = if (1 : ℕ) = 1 then 0 else c.val
      rw [if_pos rfl]
  · refine shapeCast_apply w hc _ _ ?_
    rw [Shape.rowMajor_val_one, Shape.rowMajor_val_two]
    show r.val = r.val * 1 + 0
    omega

end Rows

/-! ## The softmax of a matrix's rows, and its logarithm shifted by ε, as the body computes them -/

section Softmax

variable {m n : ℕ} (v : FVec Ideal ⟨2, ![m, n]⟩ .f32)
  (hr : (⟨2, ![m, n]⟩ : Shape).Reduces [1] ⟨1, ![m]⟩)
  (hc : (⟨1, ![m]⟩ : Shape).ShapeCasts ⟨2, ![m, 1]⟩) (hb : (⟨2, ![m, 1]⟩ : Shape).Broadcasts ⟨2, ![m, n]⟩)
  (hφ : FKind.Formats .f32)
  (hmax : (0xFF800000#32 : BitVec FTy.f32.bits) = FKind.maximumf.neutral .f32 hφ)
  (hadd : (0x00000000#32 : BitVec FTy.f32.bits) = FKind.add.neutral .f32 hφ)

/-- The rows' shifts, spread over the rows: each row's maximum taken from the -∞ pattern, joined once more with that
    pattern. -/
def shiftRows : FVec Ideal ⟨2, ![m, n]⟩ .f32 :=
  broadcastTo ⟨2, ![m, n]⟩
    (shapeCast ⟨2, ![m, 1]⟩
      (maximumf (broadcast ⟨1, ![m]⟩ (Scalar.ofBits .f32 0xFF800000#32))
        (multiReduction .maximumf [1] ⟨1, ![m]⟩ v 0xFF800000#32 hr hφ hmax)) hc) hb

/-- At `(r, c)` it is the shift of row `r`. -/
theorem shiftRows_apply (r : Fin m) (c : Fin n) :
    shiftRows v hr hc hb hφ hmax (ix2 r c) = shift (fun k => v (ix2 r k)) :=
  (keepdims_apply _ hc hb r c).trans
    (congrArg (max (Ideal.ofBits .f32 0xFF800000#32)) (rowMax_apply v _ hr hφ hmax r))

/-- The softmax of each row: the exponentials of the shifted entries over their row sum. -/
def softmaxRows : FVec Ideal ⟨2, ![m, n]⟩ .f32 :=
  divf (exp (subf v (shiftRows v hr hc hb hφ hmax)))
    (broadcastTo ⟨2, ![m, n]⟩
      (shapeCast ⟨2, ![m, 1]⟩
        (multiReduction .add [1] ⟨1, ![m]⟩ (exp (subf v (shiftRows v hr hc hb hφ hmax))) 0x00000000#32 hr hφ hadd) hc) hb)

/-- At `(r, c)` it is entry `c` of the softmax of row `r`. -/
theorem softmaxRows_apply (r : Fin m) (c : Fin n) :
    softmaxRows v hr hc hb hφ hmax hadd (ix2 r c) = softmaxAt (fun k => v (ix2 r k)) c := by
  have hs : ∀ c' : Fin n, shiftRows v hr hc hb hφ hmax (ix2 r c') = shift (fun k => v (ix2 r k)) :=
    fun c' => shiftRows_apply v hr hc hb hφ hmax r c'
  unfold softmaxRows softmaxAt
  show Ideal.div (Ideal.exp (v (ix2 r c) - shiftRows v hr hc hb hφ hmax (ix2 r c))) _ = _
  refine (congrArg (Ideal.div _) ((keepdims_apply _ hc hb r c).trans (rowSum_apply _ _ hr hφ hadd r))).trans ?_
  show Ideal.div (Ideal.exp (v (ix2 r c) - shiftRows v hr hc hb hφ hmax (ix2 r c)))
      (∑ k : Fin n, Ideal.exp (v (ix2 r k) - shiftRows v hr hc hb hφ hmax (ix2 r k))) = _
  simp only [hs]

/-- The logarithm of each row's softmax shifted by ε. -/
def logSoftmaxRows : FVec Ideal ⟨2, ![m, n]⟩ .f32 :=
  log (addf (softmaxRows v hr hc hb hφ hmax hadd) (broadcast ⟨2, ![m, n]⟩ (Scalar.ofBits .f32 0x322BCC77#32)))

/-- At `(r, c)` it is entry `c` of log (softmax + ε) of row `r`. -/
theorem logSoftmaxRows_apply (r : Fin m) (c : Fin n) :
    logSoftmaxRows v hr hc hb hφ hmax hadd (ix2 r c) = logSoftmaxAt (fun k => v (ix2 r k)) c :=
  congrArg (fun x => Ideal.log (x + Ideal.ofBits .f32 0x322BCC77#32)) (softmaxRows_apply v hr hc hb hφ hmax hadd r c)

end Softmax

/-- The softmax payload at (r, c): the softmax of row r's first 64 entries. -/
theorem pay1_apply (v0 : Vec Ideal S1024x65 .f32) (r : Fin 1024) (c : Fin 64) :
    k0_pay1 v0 (ix2 r c)
      = softmaxAt (fun c' : Fin 64 => v0 (ix2 r (⟨c'.val, by have := c'.isLt; omega⟩ : Fin 65))) c := by
  have e : k0_pay1 v0
      = softmaxRows (extractStridedSlice S1024x64 ![0, 0] v0 slices_S1024x65_o0_0_S1024x64) reduces_S1024x64_S1024
          shapeCasts_S1024_S1024x1 broadcasts_S1024x1_S1024x64 (.inl rfl) rfl rfl := rfl
  refine (congrFun e (ix2 r c)).trans ((softmaxRows_apply _ _ _ _ _ _ _ r c).trans ?_)
  refine congrArg (fun x => softmaxAt x c) (funext fun c' => ?_)
  exact slice2_axis1_apply 0 v0 _ r c' _ (Nat.zero_add _).symm

/-- The first slab's log-softmax at (r, k). -/
theorem pay3_apply (v14 : Vec Ideal S1x1024x10 .f32) (r : Fin 1024) (k : Fin 10) :
    k0_pay3 v14 (ix2 r k) = logSoftmaxAt (fun k' : Fin 10 => v14 (ix3 (0 : Fin 1) r k')) k := by
  have e : k0_pay3 v14
      = logSoftmaxRows (shapeCast S1024x10 v14 shapeCasts_S1x1024x10_S1024x10) reduces_S1024x10_S1024
          shapeCasts_S1024_S1024x1 broadcasts_S1024x1_S1024x10 (.inl rfl) rfl rfl := rfl
  refine (congrFun e (ix2 r k)).trans ((logSoftmaxRows_apply _ _ _ _ _ _ _ r k).trans ?_)
  exact congrArg (fun x => logSoftmaxAt x k) (funext fun k' => shapeCast_1ab_ab_apply v14 _ r k')

/-- The second slab's log-softmax at (r, k): the body cuts it into three payloads. -/
theorem pay11_apply (v94 : Vec Ideal S1x1024x10 .f32) (r : Fin 1024) (k : Fin 10) :
    k0_pay11 (k0_pay9 v94) (k0_pay10 v94) (Scalar.ofBits .f32 0xFF800000#32) (ix2 r k)
      = logSoftmaxAt (fun k' : Fin 10 => v94 (ix3 (0 : Fin 1) r k')) k := by
  have e : k0_pay11 (k0_pay9 v94) (k0_pay10 v94) (Scalar.ofBits .f32 0xFF800000#32)
      = logSoftmaxRows (shapeCast S1024x10 v94 shapeCasts_S1x1024x10_S1024x10) reduces_S1024x10_S1024
          shapeCasts_S1024_S1024x1 broadcasts_S1024x1_S1024x10 (.inl rfl) rfl rfl := rfl
  refine (congrFun e (ix2 r k)).trans ((logSoftmaxRows_apply _ _ _ _ _ _ _ r k).trans ?_)
  exact congrArg (fun x => logSoftmaxAt x k) (funext fun k' => shapeCast_1ab_ab_apply v94 _ r k')

/-- The third slab's log-softmax at (r, k). -/
theorem pay17_apply (v174 : Vec Ideal S1x1024x10 .f32) (r : Fin 1024) (k : Fin 10) :
    k0_pay17 v174 (ix2 r k) = logSoftmaxAt (fun k' : Fin 10 => v174 (ix3 (0 : Fin 1) r k')) k := by
  have e : k0_pay17 v174
      = logSoftmaxRows (shapeCast S1024x10 v174 shapeCasts_S1x1024x10_S1024x10) reduces_S1024x10_S1024
          shapeCasts_S1024_S1024x1 broadcasts_S1024x1_S1024x10 (.inl rfl) rfl rfl := rfl
  refine (congrFun e (ix2 r k)).trans ((logSoftmaxRows_apply _ _ _ _ _ _ _ r k).trans ?_)
  exact congrArg (fun x => logSoftmaxAt x k) (funext fun k' => shapeCast_1ab_ab_apply v174 _ r k')

/-- A row's sum of squares. -/
theorem pay22_apply (v254 : Vec Ideal S1024x128 .f32) (r : Fin 1024) :
    k0_pay22 v254 (ix1 r) = ∑ j : Fin 128, v254 (ix2 r j) * v254 (ix2 r j) :=
  rowSum_apply (mulf v254 v254) _ reduces_S1024x128_S1024 (.inl rfl) rfl r

end Cert.KerSide

end
-- ==== Proof.KerContract.lean ====
/-
  The kernel body's select-and-sum: for each of the three dimensions the row's ten log-softmax values are
  multiplied by the ten rows of a [10, 64] indicator slab and added up, and the three results are added. Read at
  (r, c) it is the sum over the dimensions of Σ_k lsm(r, k) · slab(k, c).

  One dimension's work is the same expression whatever the slabs: ten products of a column spread along the
  columns with a row spread along the rows, added one after the other onto a zero block. It is named here once
  (contrib), read at an index once (contrib_apply), and the three irregular cuts of the body are each shown to
  be that expression added to what came before.
-/
import proofs.«405782_j55946243997877_3_alg».proof.Proof.KerSoft
import Idealize.ShloMosaic.Lib.Pipeline.Value
import Idealize.ShloMosaic.Lib.ValueLayout
import Idealize.ShloMosaic.PureOps.Ideal.Laws
import Mathlib.Algebra.BigOperators.Fin

noncomputable section

namespace Cert.KerSide

open Cert.KernelIdeal Cert.KernelIdeal.Gen Cert.LossSpec Idealize.ShloMosaic Idealize.ShloMosaic.ValueIdx

/-- A column of a [1024, 10] array, cut out and broadcast along the 64 columns, reads at (r, c) the array at (r, k). -/
theorem colBroadcast_apply (Lv : FVec Ideal S1024x10 .f32) (k : Nat) (hk : k < 10)
    (h1 : S1024x10.Slices ![0, k] S1024x1) (hb : S1024x1.Broadcasts S1024x64) (r : Fin 1024) (c : Fin 64) :
    broadcastTo S1024x64 (extractStridedSlice S1024x1 ![0, k] Lv h1) hb (ix2 r c) = Lv (ix2 r ⟨k, hk⟩) := by
  refine (broadcastTo_apply _ hb (ix2 r c) (ix2 r (0 : Fin 1)) fun ax => ?_).trans ?_
  · match ax with
    | ⟨0, _⟩ => rfl
    | ⟨1, _⟩ => rfl
  · exact slice2_axis1_apply k Lv h1 r (0 : Fin 1) ⟨k, hk⟩ rfl

/-- A row of a [10, 64] array, cut out and broadcast along the 1024 rows, reads at (r, c) the array at (k, c). -/
theorem rowBroadcast_apply (Bv : FVec Ideal S10x64 .f32) (k : Nat) (hk : k < 10)
    (h2 : S10x64.Slices ![k, 0] S1x64) (hb : S1x64.Broadcasts S1024x64) (r : Fin 1024) (c : Fin 64) :
    broadcastTo S1024x64 (extractStridedSlice S1x64 ![k, 0] Bv h2) hb (ix2 r c) = Bv (ix2 ⟨k, hk⟩ c) := by
  refine (broadcastTo_1b_ab_apply _ hb r c).trans ?_
  exact slice2_axis0_apply k Bv h2 (0 : Fin 1) c ⟨k, hk⟩ rfl

/-- Ten terms added one after the other onto zero are the sum of the family. -/
theorem chain10_eq_sum (f : Fin 10 → EReal) :
    (((((((((0 + f 0) + f 1) + f 2) + f 3) + f 4) + f 5) + f 6) + f 7) + f 8) + f 9 = ∑ k : Fin 10, f k := by
  rw [Fin.sum_univ_castSucc, Fin.sum_univ_castSucc, Fin.sum_univ_eight, zero_add]
  rfl

/-- The product of column k of a [1024, 10] array, spread along the 64 columns, with row k of a [10, 64] array,
    spread along the 1024 rows. -/
def colRow (Lv : FVec Ideal S1024x10 .f32) (Bv : FVec Ideal S10x64 .f32) (k : Nat)
    (h1 : S1024x10.Slices ![0, k] S1024x1) (h2 : S10x64.Slices ![k, 0] S1x64) : FVec Ideal S1024x64 .f32 :=
  mulf (broadcastTo S1024x64 (extractStridedSlice S1024x1 ![0, k] Lv h1) broadcasts_S1024x1_S1024x64)
    (broadcastTo S1024x64 (extractStridedSlice S1x64 ![k, 0] Bv h2) broadcasts_S1x64_S1024x64)

/-- At (r, c) it is the product of the two entries. -/
theorem colRow_apply (Lv : FVec Ideal S1024x10 .f32) (Bv : FVec Ideal S10x64 .f32) (k : Nat) (hk : k < 10)
    (h1 : S1024x10.Slices ![0, k] S1024x1) (h2 : S10x64.Slices ![k, 0] S1x64) (r : Fin 1024) (c : Fin 64) :
    colRow Lv Bv k h1 h2 (ix2 r c) = Lv (ix2 r ⟨k, hk⟩) * Bv (ix2 ⟨k, hk⟩ c) := by
  unfold colRow
  rw [mulf_apply, colBroadcast_apply Lv k hk, rowBroadcast_apply Bv k hk]

/-- One dimension's select-and-sum as the body writes it: the ten products added one after the other onto a zero block. -/
def contrib (Lv : FVec Ideal S1024x10 .f32) (Bv : FVec Ideal S10x64 .f32) : FVec Ideal S1024x64 .f32 :=
  (addf (addf (addf (addf (addf (addf (addf (addf (addf (addf (broadcast S1024x64 (Scalar.ofBits .f32 0x00000000#32))
      (colRow Lv Bv 0 slices_S1024x10_o0_0_S1024x1 slices_S10x64_o0_0_S1x64))
      (colRow Lv Bv 1 slices_S1024x10_o0_1_S1024x1 slices_S10x64_o1_0_S1x64))
      (colRow Lv Bv 2 slices_S1024x10_o0_2_S1024x1 slices_S10x64_o2_0_S1x64))
      (colRow Lv Bv 3 slices_S1024x10_o0_3_S1024x1 slices_S10x64_o3_0_S1x64))
      (colRow Lv Bv 4 slices_S1024x10_o0_4_S1024x1 slices_S10x64_o4_0_S1x64))
      (colRow Lv Bv 5 slices_S1024x10_o0_5_S1024x1 slices_S10x64_o5_0_S1x64))
      (colRow Lv Bv 6 slices_S1024x10_o0_6_S1024x1 slices_S10x64_o6_0_S1x64))
      (colRow Lv Bv 7 slices_S1024x10_o0_7_S1024x1 slices_S10x64_o7_0_S1x64))
      (colRow Lv Bv 8 slices_S1024x10_o0_8_S1024x1 slices_S10x64_o8_0_S1x64))
      (colRow Lv Bv 9 slices_S1024x10_o0_9_S1024x1 slices_S10x64_o9_0_S1x64))

/-- At (r, c) it is the sum over k of the products of the entries. -/
theorem contrib_apply (Lv : FVec Ideal S1024x10 .f32) (Bv : FVec Ideal S10x64 .f32) (r : Fin 1024) (c : Fin 64) :
    contrib Lv Bv (ix2 r c) = ∑ k : Fin 10, Lv (ix2 r k) * Bv (ix2 k c) := by
  refine Eq.trans ?_ (chain10_eq_sum fun k : Fin 10 => Lv (ix2 r k) * Bv (ix2 k c))
  unfold contrib
  simp only [addf_apply, broadcast_apply]
  rw [colRow_apply Lv Bv 0 (by omega), colRow_apply Lv Bv 1 (by omega), colRow_apply Lv Bv 2 (by omega),
    colRow_apply Lv Bv 3 (by omega), colRow_apply Lv Bv 4 (by omega), colRow_apply Lv Bv 5 (by omega),
    colRow_apply Lv Bv 6 (by omega), colRow_apply Lv Bv 7 (by omega), colRow_apply Lv Bv 8 (by omega),
    colRow_apply Lv Bv 9 (by omega)]
  show Ideal.ofBits .f32 0x00000000#32 + _ + _ + _ + _ + _ + _ + _ + _ + _ + _ = _
  rw [Ideal.ofBits_zero_f32]
  rfl

/-- The first dimension's payloads put together: the zero block plus the select-and-sum of the first slabs. -/
theorem pay8_eq (a0 : Vec Ideal S1x1024x10 .f32) (b0 : Vec Ideal S1x10x64 .f32) :
    k0_pay8 (k0_pay2 (F := Ideal)) (k0_pay3 a0) (k0_pay4 b0) (k0_pay5 a0 b0) (k0_pay6 b0) (k0_pay7 a0)
      = addf (broadcast S1024x64 (Scalar.ofBits .f32 0x00000000#32)) (contrib (k0_pay3 a0) (k0_pay4 b0)) := rfl

/-- The second dimension's payloads put together: what came before plus the select-and-sum of the second slabs. -/
theorem pay16_eq (v93 : FVec Ideal S1024x64 .f32) (v95 : FVec Ideal S1024x10 .f32) (v96 : FVec Ideal S1024 .f32)
    (cst : Ideal .f32) (b1 : Vec Ideal S1x10x64 .f32) :
    k0_pay16 v93 (k0_pay11 v95 v96 cst) (k0_pay12 b1) (k0_pay13 v95 v96 cst b1) (k0_pay14 v95 v96 cst) (k0_pay15 b1)
      = addf v93 (contrib (k0_pay11 v95 v96 cst) (k0_pay12 b1)) := rfl

/-- The third dimension's payloads put together. -/
theorem pay21_eq (v173 : FVec Ideal S1024x64 .f32) (a2 : Vec Ideal S1x1024x10 .f32) (b2 : Vec Ideal S1x10x64 .f32) :
    k0_pay21 v173 (k0_pay17 a2) (k0_pay18 b2) (k0_pay19 a2 b2) (k0_pay20 a2)
      = addf v173 (contrib (k0_pay17 a2) (k0_pay18 b2)) := rfl

/-- The first indicator slab with its unit axis dropped reads at (k, c) the slab at (0, k, c). -/
theorem pay4_apply (b : Vec Ideal S1x10x64 .f32) (k : Fin 10) (c : Fin 64) :
    k0_pay4 b (ix2 k c) = b (ix3 (0 : Fin 1) k c) :=
  shapeCast_1ab_ab_apply b shapeCasts_S1x10x64_S10x64 k c

/-- The second indicator slab likewise. -/
theorem pay12_apply (b : Vec Ideal S1x10x64 .f32) (k : Fin 10) (c : Fin 64) :
    k0_pay12 b (ix2 k c) = b (ix3 (0 : Fin 1) k c) :=
  shapeCast_1ab_ab_apply b shapeCasts_S1x10x64_S10x64 k c

/-- The third indicator slab likewise. -/
theorem pay18_apply (b : Vec Ideal S1x10x64 .f32) (k : Fin 10) (c : Fin 64) :
    k0_pay18 b (ix2 k c) = b (ix3 (0 : Fin 1) k c) :=
  shapeCast_1ab_ab_apply b shapeCasts_S1x10x64_S10x64 k c

/-- The accumulated log-products payload at (r, c), over the three log-softmax slabs a0 a1 a2 and the three
    indicator slabs b0 b1 b2. -/
theorem logprods_apply (a0 a1 a2 : Vec Ideal S1x1024x10 .f32) (b0 b1 b2 : Vec Ideal S1x10x64 .f32) (r : Fin 1024) (c : Fin 64) :
    k0_pay21
        (k0_pay16
          (k0_pay8 (k0_pay2 (F := Ideal)) (k0_pay3 a0) (k0_pay4 b0) (k0_pay5 a0 b0) (k0_pay6 b0) (k0_pay7 a0))
          (k0_pay11 (k0_pay9 a1) (k0_pay10 a1) (Scalar.ofBits .f32 0xFF800000#32))
          (k0_pay12 b1)
          (k0_pay13 (k0_pay9 a1) (k0_pay10 a1) (Scalar.ofBits .f32 0xFF800000#32) b1)
          (k0_pay14 (k0_pay9 a1) (k0_pay10 a1) (Scalar.ofBits .f32 0xFF800000#32))
          (k0_pay15 b1))
        (k0_pay17 a2) (k0_pay18 b2) (k0_pay19 a2 b2) (k0_pay20 a2) (ix2 r c)
      = ((∑ k : Fin 10, logSoftmaxAt (fun k' : Fin 10 => a0 (ix3 (0 : Fin 1) r k')) k * b0 (ix3 (0 : Fin 1) k c))
          + (∑ k : Fin 10, logSoftmaxAt (fun k' : Fin 10 => a1 (ix3 (0 : Fin 1) r k')) k * b1 (ix3 (0 : Fin 1) k c)))
        + (∑ k : Fin 10, logSoftmaxAt (fun k' : Fin 10 => a2 (ix3 (0 : Fin 1) r k')) k * b2 (ix3 (0 : Fin 1) k c)) := by
  rw [pay21_eq, pay16_eq, pay8_eq]
  simp only [addf_apply, broadcast_apply, contrib_apply, pay3_apply, pay11_apply, pay17_apply, pay4_apply,
    pay12_apply, pay18_apply]
  show Ideal.ofBits .f32 0x00000000#32 + _ + _ + _ = _
  rw [Ideal.ofBits_zero_f32, zero_add]

end Cert.KerSide

end
-- ==== Proof.KerOut.lean ====
/-
  The kernel body's last payload — the two numbers a grid point stores — read at its two entries, over abstract
  softmax, log-products and sum-of-squares vectors: entry 0 is the sum over the tile's 1024 rows of the loss at the
  row's label (zero for a label that is no class), entry 1 the number of rows whose label is a class.
-/
import proofs.«405782_j55946243997877_3_alg».proof.Proof.Gen.KernelIdeal.Skeleton
import proofs.«405782_j55946243997877_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate

noncomputable section

namespace Cert.KerSide

open Cert.KernelIdeal Cert.KernelIdeal.Gen Cert.LossSpec Idealize.ShloMosaic Idealize.ShloMosaic.ValueIdx

/-! # The pieces of the stored row, read at an index -/

namespace StoredRow

/-- A one-bit word widened to 32 bits and converted, as a signed integer, to an extended real: 1 for the set bit,
    0 for the clear one. -/
theorem bit_toEReal (b : BitVec 1) :
    FloatOps.sitofp (F := Ideal) .f32 (b.setWidth 32) = if b = 1#1 then (1 : EReal) else 0 := by
  rcases BitVec.eq_zero_or_eq_one b with rfl | rfl
  · show (((((0#1 : BitVec 1).setWidth 32).toInt : ℤ) : ℝ) : EReal) = _
    rw [if_neg (by decide), show ((0#1 : BitVec 1).setWidth 32).toInt = 0 from by decide]
    simp
  · show (((((1#1 : BitVec 1).setWidth 32).toInt : ℤ) : ℝ) : EReal) = _
    rw [if_pos rfl, show ((1#1 : BitVec 1).setWidth 32).toInt = 1 from by decide]
    simp

/-! ## The layout operations of the payload, read at an index -/

/-- A vector viewed as a column reads, at (r, 0), the vector at r. -/
theorem col_apply {α : Type} (x : S1024.Idx → α) (r : Fin 1024) (u : Fin 1) :
    shapeCast S1024x1 x shapeCasts_S1024_S1024x1 (ix2 r u) = x (ix1 r) :=
  shapeCast_apply x shapeCasts_S1024_S1024x1 _ _ (by
    have hu : u.val = 0 := by omega
    rw [Shape.rowMajor_val_one, Shape.rowMajor_val_two]
    show r.val = r.val * 1 + u.val
    omega)

/-- A column broadcast along the rows reads, at (r, c), the column at (r, 0). -/
theorem bcol_apply {α : Type} (x : S1024x1.Idx → α) (r : Fin 1024) (c : Fin 64) :
    broadcastTo S1024x64 x broadcasts_S1024x1_S1024x64 (ix2 r c) = x (ix2 r (0 : Fin 1)) := by
  refine broadcastTo_apply x broadcasts_S1024x1_S1024x64 (ix2 r c) (ix2 r (0 : Fin 1)) fun ax => ?_
  match ax with
  | ⟨0, _⟩ => rfl
  | ⟨1, _⟩ => rfl

/-- The sum along a row of a [1024, 64] array. -/
theorem rowsum64_apply (x : FVec Ideal S1024x64 .f32) (r : Fin 1024) :
    multiReduction .add [1] S1024 x 0x00000000#32 reduces_S1024x64_S1024 (.inl rfl) rfl (ix1 r)
      = ∑ c : Fin 64, x (ix2 r c) := by
  refine (Ideal.multiReduction_add_single x _ reduces_S1024x64_S1024 _ _ (ix1 r)).trans ?_
  refine Finset.sum_congr rfl fun c _ => congrArg x (funext fun a => ?_)
  match a with
  | ⟨0, _⟩ => rfl
  | ⟨1, _⟩ => rfl

/-- The sum along a row of a [1024, 512] array. -/
theorem rowsum512_apply (x : FVec Ideal S1024x512 .f32) (r : Fin 1024) :
    multiReduction .add [1] S1024 x 0x00000000#32 reduces_S1024x512_S1024 (.inl rfl) rfl (ix1 r)
      = ∑ j : Fin 512, x (ix2 r j) := by
  refine (Ideal.multiReduction_add_single x _ reduces_S1024x512_S1024 _ _ (ix1 r)).trans ?_
  refine Finset.sum_congr rfl fun j _ => congrArg x (funext fun a => ?_)
  match a with
  | ⟨0, _⟩ => rfl
  | ⟨1, _⟩ => rfl

/-- The sum of a [1024, 1] column over its rows. -/
theorem colsum_apply (x : FVec Ideal S1024x1 .f32) :
    multiReduction .add [0] S1 x 0x00000000#32 reduces_S1024x1_S1 (.inl rfl) rfl (ix1 (0 : Fin 1))
      = ∑ r : Fin 1024, x (ix2 r (0 : Fin 1)) := by
  refine (Ideal.multiReduction_add_single x _ reduces_S1024x1_S1 _ _ (ix1 (0 : Fin 1))).trans ?_
  refine Finset.sum_congr rfl fun r _ => congrArg x (funext fun a => ?_)
  match a with
  | ⟨0, _⟩ => rfl
  | ⟨1, _⟩ => rfl

/-- The stored row [1, 1, 2] made of two one-entry vectors: entry (0, 0, 0) is the first vector's entry. -/
theorem out_fst (a b : FVec Ideal S1 .f32) :
    shapeCast S1x1x2 (concatenate S1x2 1 [⟨S1x1, shapeCast S1x1 a shapeCasts_S1_S1x1⟩, ⟨S1x1, shapeCast S1x1 b shapeCasts_S1_S1x1⟩]
        concatenates_S1x1_S1x1_S1x2_d1) shapeCasts_S1x2_S1x1x2 (ix3 (0 : Fin 1) (0 : Fin 1) (0 : Fin 2))
      = a (ix1 (0 : Fin 1)) := by
  refine (shapeCast_ab_1ab_apply _ shapeCasts_S1x2_S1x1x2 0 0 0).trans ?_
  refine (concatenate_pair_apply_left (t := S1x2) (s₁ := S1x1) (s₂ := S1x1) (1 : Fin 2) _ _ concatenates_S1x1_S1x1_S1x2_d1 (ix2 (0 : Fin 1) (0 : Fin 2)) rfl
    (ix2 (0 : Fin 1) (0 : Fin 1)) (fun b => ?_)).trans ?_
  · match b with
    | ⟨0, _⟩ => rfl
    | ⟨1, _⟩ => rfl
  · exact shapeCast_a_1a_apply a shapeCasts_S1_S1x1 0 0

/-- … and entry (0, 0, 1) is the second vector's. -/
theorem out_snd (a b : FVec Ideal S1 .f32) :
    shapeCast S1x1x2 (concatenate S1x2 1 [⟨S1x1, shapeCast S1x1 a shapeCasts_S1_S1x1⟩, ⟨S1x1, shapeCast S1x1 b shapeCasts_S1_S1x1⟩]
        concatenates_S1x1_S1x1_S1x2_d1) shapeCasts_S1x2_S1x1x2 (ix3 (0 : Fin 1) (0 : Fin 1) (1 : Fin 2))
      = b (ix1 (0 : Fin 1)) := by
  refine (shapeCast_ab_1ab_apply _ shapeCasts_S1x2_S1x1x2 0 0 1).trans ?_
  refine (concatenate_pair_apply_right (t := S1x2) (s₁ := S1x1) (s₂ := S1x1) (1 : Fin 2) _ _ concatenates_S1x1_S1x1_S1x2_d1 (ix2 (0 : Fin 1) (1 : Fin 2)) rfl rfl
    (ix2 (0 : Fin 1) (0 : Fin 1)) (fun b hb => ?_) rfl).trans ?_
  · match b, hb with
    | ⟨0, _⟩, _ => rfl
    | ⟨1, _⟩, hb => exact absurd rfl hb
  · exact shapeCast_a_1a_apply b shapeCasts_S1_S1x1 0 0

/-! ## The payload's row pieces -/

/-- exp(-½ x) of a vector x, as a column broadcast along the rows. -/
theorem gaussCol_apply (x : FVec Ideal S1024 .f32) (r : Fin 1024) (c : Fin 64) :
    broadcastTo S1024x64 (exp (mulf (broadcast S1024x1 (Scalar.ofBits (F := Ideal) .f32 0xBF000000#32))
        (shapeCast S1024x1 x shapeCasts_S1024_S1024x1))) broadcasts_S1024x1_S1024x64 (ix2 r c)
      = Ideal.exp (Ideal.ofBits .f32 0xBF000000#32 * x (ix1 r)) := by
  refine (bcol_apply _ r c).trans ?_
  show Ideal.exp (Ideal.ofBits .f32 0xBF000000#32 * shapeCast S1024x1 x shapeCasts_S1024_S1024x1 (ix2 r (0 : Fin 1))) = _
  rw [col_apply]

/-- The label mask as a float: 1 where the (non-negative) label is below 64, else 0. -/
theorem mask_apply (y : IVec S1024 32) (r : Fin 1024) (hy : (y (ix1 r)).toNat < 2 ^ 31) :
    (sitofp (F := Ideal) .f32 (extui 32 (cmpi .slt y (broadcast S1024 64#32)) natLt_1_32)) (ix1 r)
      = if (y (ix1 r)).toNat < 64 then (1 : EReal) else 0 := by
  show FloatOps.sitofp (F := Ideal) .f32 ((IntOp.cmpi .slt (y (ix1 r)) 64#32).setWidth 32) = _
  rw [bit_toEReal]
  have key := StableHlo.Predicate.slt_iff_toNat (a := y (ix1 r)) (b := 64#32) hy (by decide)
  by_cases h : (y (ix1 r)).toNat < 64
  · rw [if_pos h, if_pos (key.mpr h)]
  · rw [if_neg h, if_neg (fun e => h (key.mp e))]

/-- The label made safe: itself where it is below 64, else the zero word. -/
theorem ysafe_apply (y : IVec S1024 32) (r : Fin 1024) (hy : (y (ix1 r)).toNat < 2 ^ 31) :
    select (cmpi .slt y (broadcast S1024 64#32)) y (broadcast S1024 0#32) (ix1 r)
      = if (y (ix1 r)).toNat < 64 then y (ix1 r) else 0#32 := by
  show Scalar.select (IntOp.cmpi .slt (y (ix1 r)) 64#32) (y (ix1 r)) 0#32 = _
  have key := StableHlo.Predicate.slt_iff_toNat (a := y (ix1 r)) (b := 64#32) hy (by decide)
  by_cases h : (y (ix1 r)).toNat < 64
  · rw [if_pos h, key.mpr h, select_one]
  · rw [if_neg h, eq_zero_of_ne_one (fun e => h (key.mp e)), select_zero]

/-- The one-hot matrix of a label vector: at (r, c) the indicator that the label of row r is the position c. -/
theorem onehot_apply (y : IVec S1024 32) (r : Fin 1024) (c : Fin 64) :
    (sitofp (F := Ideal) .f32 (extui 32 (cmpi .eq (iota .tc S1024x64 32 [1] iota_S1024x64_d1_w32)
        (broadcastTo S1024x64 (shapeCast S1024x1 y shapeCasts_S1024_S1024x1) broadcasts_S1024x1_S1024x64)) natLt_1_32)) (ix2 r c)
      = hot (y (ix1 r)) c.val := by
  show FloatOps.sitofp (F := Ideal) .f32 ((IntOp.cmpi .eq (iota .tc S1024x64 32 [1] iota_S1024x64_d1_w32 (ix2 r c))
      (broadcastTo S1024x64 (shapeCast S1024x1 y shapeCasts_S1024_S1024x1) broadcasts_S1024x1_S1024x64 (ix2 r c))).setWidth 32) = _
  rw [bit_toEReal, bcol_apply, col_apply, iota_single_apply]
  show (if IntOp.cmpi .eq (BitVec.ofNat 32 c.val) (y (ix1 r)) = 1#1 then (1 : EReal) else 0) = _
  unfold hot
  by_cases h : y (ix1 r) = BitVec.ofNat 32 c.val
  · rw [if_pos h, if_pos (StableHlo.Predicate.cmpi_eq_iff.mpr h.symm)]
  · rw [if_neg h, if_neg (fun e => h (StableHlo.Predicate.cmpi_eq_iff.mp e).symm)]

/-- One row's term: the row of products against the safe label's indicator, summed, times the mask, picks the entry
    the label names, or is zero when the label names none. -/
theorem row_term (f : Fin 64 → EReal) (y : BitVec 32) :
    (∑ c : Fin 64, f c * hot (if y.toNat < 64 then y else 0#32) c.val) * (if y.toNat < 64 then (1 : EReal) else 0)
      = pick f y := by
  by_cases h : y.toNat < 64
  · rw [if_pos h, if_pos h, mul_one, sum_mul_hot (by decide)]
  · rw [if_neg h, if_neg h, mul_zero]
    unfold pick
    rw [dif_neg h]

end StoredRow

open StoredRow

/-- Entry (0, 0, 0) of the stored row: the tile's sum, when every label of the block is non-negative. -/
theorem pay23_sum (v12 v253 : FVec Ideal S1024x64 .f32) (v256 : FVec Ideal S1024 .f32) (v261 v262 : Vec Ideal S1024x512 .f32)
    (v279 : Vec Ideal S1024 .i32) (hy : ∀ r : Fin 1024, (v279 (ix1 r)).toNat < 2 ^ 31) :
    k0_pay23 v12 v253 v256 v261 v262 v279 (ix3 (0 : Fin 1) (0 : Fin 1) (0 : Fin 2))
      = ∑ r : Fin 1024, pick (fun c : Fin 64 =>
          ((v12 (ix2 r c) * gaussAt (fun j : Fin 512 => v261 (ix2 r j) - v262 (ix2 r j)))
              * Ideal.exp (Ideal.ofBits .f32 0xBF000000#32 * v256 (ix1 r)))
            * (Ideal.log (v12 (ix2 r c) + Ideal.ofBits .f32 0x322BCC77#32) - v253 (ix2 r c)))
          (v279 (ix1 r)) := by
  unfold k0_pay23
  refine (out_fst _ _).trans ?_
  refine (colsum_apply _).trans ?_
  refine Finset.sum_congr rfl fun r _ => ?_
  refine Eq.trans ?_ (row_term _ (v279 (ix1 r)))
  show shapeCast S1024x1 _ shapeCasts_S1024_S1024x1 (ix2 r (0 : Fin 1)) * shapeCast S1024x1 _ shapeCasts_S1024_S1024x1 (ix2 r (0 : Fin 1)) = _
  rw [col_apply, col_apply, rowsum64_apply, mask_apply _ r (hy r)]
  refine congrArg (· * _) (Finset.sum_congr rfl fun c _ => ?_)
  refine congrArg₂ (· * ·) ?_ ?_
  · show ((v12 (ix2 r c) * broadcastTo S1024x64 _ broadcasts_S1024x1_S1024x64 (ix2 r c))
        * broadcastTo S1024x64 _ broadcasts_S1024x1_S1024x64 (ix2 r c))
        * (Ideal.log (v12 (ix2 r c) + Ideal.ofBits .f32 0x322BCC77#32) - v253 (ix2 r c)) = _
    rw [gaussCol_apply, gaussCol_apply, rowsum512_apply]
    rfl
  · refine (onehot_apply _ r c).trans ?_
    rw [ysafe_apply _ r (hy r)]

/-- Entry (0, 0, 1) of the stored row: the tile's count. -/
theorem pay23_cnt (v12 v253 : FVec Ideal S1024x64 .f32) (v256 : FVec Ideal S1024 .f32) (v261 v262 : Vec Ideal S1024x512 .f32)
    (v279 : Vec Ideal S1024 .i32) (hy : ∀ r : Fin 1024, (v279 (ix1 r)).toNat < 2 ^ 31) :
    k0_pay23 v12 v253 v256 v261 v262 v279 (ix3 (0 : Fin 1) (0 : Fin 1) (1 : Fin 2))
      = ∑ r : Fin 1024, (if (v279 (ix1 r)).toNat < 64 then (1 : EReal) else 0) := by
  unfold k0_pay23
  refine (out_snd _ _).trans ?_
  refine (colsum_apply _).trans ?_
  refine Finset.sum_congr rfl fun r _ => ?_
  refine (col_apply _ r 0).trans ?_
  exact mask_apply v279 r (hy r)

end Cert.KerSide

end
-- ==== Proof.KerBlocks.lean ====
/-
  What the region finds in its windows: block t of each of the six streamed argument arrays is the array at rows
  1024·t … 1024·t + 1023, and the indicator array the host operations before the region build from valid_cp holds,
  at (d, k, c), 1 when valid_cp (c, d) is the position k and 0 otherwise.
-/
import proofs.«405782_j55946243997877_3_alg».proof.Proof.Gen.KernelIdeal.Frame
import proofs.«405782_j55946243997877_3_alg».proof.Proof.Spec
import Idealize.ShloMosaic.Lib.Pipeline.Value
import Idealize.ShloMosaic.Lib.ValueLayout
import Idealize.ShloMosaic.Lib.StableHlo.Run
import Idealize.ShloMosaic.Lib.StableHlo.Predicate

noncomputable section

namespace Cert.KerSide

open Cert.KernelIdeal Cert.KernelIdeal.Gen Cert.LossSpec Idealize.ShloMosaic Idealize.ShloMosaic.ValueIdx

variable (m : (ℓ : Loc nD τ sig) → Buf (Elt Ideal) ℓ)

/-- The seven input blocks at grid point t, each at its literal type. -/
abbrev zblk (c : Dev nD) (t : Fin cfg0.N) : Vec Ideal S1024x128 .f32 := iblk m c 0 t
abbrev xblk (c : Dev nD) (t : Fin cfg0.N) : Vec Ideal S1024x512 .f32 := iblk m c 1 t
abbrev xhblk (c : Dev nD) (t : Fin cfg0.N) : Vec Ideal S1024x512 .f32 := iblk m c 2 t
abbrev jpblk (c : Dev nD) (t : Fin cfg0.N) : Vec Ideal S1024x65 .f32 := iblk m c 3 t
abbrev ppblk (c : Dev nD) (t : Fin cfg0.N) : Vec Ideal S3x1024x10 .f32 := iblk m c 4 t
abbrev ohblk (c : Dev nD) (t : Fin cfg0.N) : Vec Ideal S3x10x64 .f32 := iblk m c 5 t
abbrev yblk (c : Dev nD) (t : Fin cfg0.N) : Vec Ideal S1024 .i32 := iblk m c 6 t

/-- The block index maps, decided once over the 64 grid points: window 0 … 3 and 6 move down the rows with the
    point, window 4 along its middle axis, window 5 stays at block 0. -/
theorem zblk_index : ∀ t : Fin cfg0.N, win0_0.index t (0 : Fin 2) = t.val ∧ win0_0.index t (1 : Fin 2) = 0 :=
  (by decide +kernel : ∀ t : Fin grid0.N, _)

theorem xblk_index : ∀ t : Fin cfg0.N, win0_1.index t (0 : Fin 2) = t.val ∧ win0_1.index t (1 : Fin 2) = 0 :=
  (by decide +kernel : ∀ t : Fin grid0.N, _)

theorem xhblk_index : ∀ t : Fin cfg0.N, win0_2.index t (0 : Fin 2) = t.val ∧ win0_2.index t (1 : Fin 2) = 0 :=
  (by decide +kernel : ∀ t : Fin grid0.N, _)

theorem jpblk_index : ∀ t : Fin cfg0.N, win0_3.index t (0 : Fin 2) = t.val ∧ win0_3.index t (1 : Fin 2) = 0 :=
  (by decide +kernel : ∀ t : Fin grid0.N, _)

theorem ppblk_index : ∀ t : Fin cfg0.N, win0_4.index t (0 : Fin 3) = 0 ∧ win0_4.index t (1 : Fin 3) = t.val
    ∧ win0_4.index t (2 : Fin 3) = 0 :=
  (by decide +kernel : ∀ t : Fin grid0.N, _)

theorem ohblk_index : ∀ t : Fin cfg0.N, win0_5.index t (0 : Fin 3) = 0 ∧ win0_5.index t (1 : Fin 3) = 0
    ∧ win0_5.index t (2 : Fin 3) = 0 :=
  (by decide +kernel : ∀ t : Fin grid0.N, _)

theorem yblk_index : ∀ t : Fin cfg0.N, win0_6.index t (0 : Fin 1) = t.val :=
  (by decide +kernel : ∀ t : Fin grid0.N, _)

theorem zblk_apply (c : Dev nD) (t : Fin cfg0.N) (ht : t.val < 64) (r : Fin 1024) (j : Fin 128) :
    zblk m c t (ix2 r j)
      = m ((c.tc : Thread nD τ).loc main_arg0) (ix2 (⟨t.val * 1024 + r.val, by have := r.isLt; omega⟩ : Fin 65536) j) := by
  obtain ⟨e0, e1⟩ := zblk_index t
  show V m c main_arg0 (((cfg0.win 0).blk t).view.emb (ix2 r j)) = _
  refine (congrFun (V_main_arg0 m c) _).trans ?_
  refine congrArg (m ((c.tc : Thread nD τ).loc main_arg0)) ?_
  funext a
  apply Fin.ext
  match a with
  | ⟨0, _⟩ => show win0_0.index t (0 : Fin 2) * 1024 + 1 * r.val = t.val * 1024 + r.val; omega
  | ⟨1, _⟩ => show win0_0.index t (1 : Fin 2) * 128 + 1 * j.val = j.val; omega

theorem xblk_apply (c : Dev nD) (t : Fin cfg0.N) (ht : t.val < 64) (r : Fin 1024) (j : Fin 512) :
    xblk m c t (ix2 r j)
      = m ((c.tc : Thread nD τ).loc main_arg1) (ix2 (⟨t.val * 1024 + r.val, by have := r.isLt; omega⟩ : Fin 65536) j) := by
  obtain ⟨e0, e1⟩ := xblk_index t
  show V m c main_arg1 (((cfg0.win 1).blk t).view.emb (ix2 r j)) = _
  refine (congrFun (V_main_arg1 m c) _).trans ?_
  refine congrArg (m ((c.tc : Thread nD τ).loc main_arg1)) ?_
  funext a
  apply Fin.ext
  match a with
  | ⟨0, _⟩ => show win0_1.index t (0 : Fin 2) * 1024 + 1 * r.val = t.val * 1024 + r.val; omega
  | ⟨1, _⟩ => show win0_1.index t (1 : Fin 2) * 512 + 1 * j.val = j.val; omega

theorem xhblk_apply (c : Dev nD) (t : Fin cfg0.N) (ht : t.val < 64) (r : Fin 1024) (j : Fin 512) :
    xhblk m c t (ix2 r j)
      = m ((c.tc : Thread nD τ).loc main_arg2) (ix2 (⟨t.val * 1024 + r.val, by have := r.isLt; omega⟩ : Fin 65536) j) := by
  obtain ⟨e0, e1⟩ := xhblk_index t
  show V m c main_arg2 (((cfg0.win 2).blk t).view.emb (ix2 r j)) = _
  refine (congrFun (V_main_arg2 m c) _).trans ?_
  refine congrArg (m ((c.tc : Thread nD τ).loc main_arg2)) ?_
  funext a
  apply Fin.ext
  match a with
  | ⟨0, _⟩ => show win0_2.index t (0 : Fin 2) * 1024 + 1 * r.val = t.val * 1024 + r.val; omega
  | ⟨1, _⟩ => show win0_2.index t (1 : Fin 2) * 512 + 1 * j.val = j.val; omega

theorem jpblk_apply (c : Dev nD) (t : Fin cfg0.N) (ht : t.val < 64) (r : Fin 1024) (j : Fin 65) :
    jpblk m c t (ix2 r j)
      = m ((c.tc : Thread nD τ).loc main_arg5) (ix2 (⟨t.val * 1024 + r.val, by have := r.isLt; omega⟩ : Fin 65536) j) := by
  obtain ⟨e0, e1⟩ := jpblk_index t
  show V m c main_arg5 (((cfg0.win 3).blk t).view.emb (ix2 r j)) = _
  refine (congrFun (V_main_arg5 m c) _).trans ?_
  refine congrArg (m ((c.tc : Thread nD τ).loc main_arg5)) ?_
  funext a
  apply Fin.ext
  match a with
  | ⟨0, _⟩ => show win0_3.index t (0 : Fin 2) * 1024 + 1 * r.val = t.val * 1024 + r.val; omega
  | ⟨1, _⟩ => show win0_3.index t (1 : Fin 2) * 65 + 1 * j.val = j.val; omega

theorem ppblk_apply (c : Dev nD) (t : Fin cfg0.N) (ht : t.val < 64) (d : Fin 3) (r : Fin 1024) (k : Fin 10) :
    ppblk m c t (ix3 d r k)
      = m ((c.tc : Thread nD τ).loc main_arg6) (ix3 d (⟨t.val * 1024 + r.val, by have := r.isLt; omega⟩ : Fin 65536) k) := by
  obtain ⟨e0, e1, e2⟩ := ppblk_index t
  show V m c main_arg6 (((cfg0.win 4).blk t).view.emb (ix3 d r k)) = _
  refine (congrFun (V_main_arg6 m c) _).trans ?_
  refine congrArg (m ((c.tc : Thread nD τ).loc main_arg6)) ?_
  funext a
  apply Fin.ext
  match a with
  | ⟨0, _⟩ => show win0_4.index t (0 : Fin 3) * 3 + 1 * d.val = d.val; omega
  | ⟨1, _⟩ => show win0_4.index t (1 : Fin 3) * 1024 + 1 * r.val = t.val * 1024 + r.val; omega
  | ⟨2, _⟩ => show win0_4.index t (2 : Fin 3) * 10 + 1 * k.val = k.val; omega

theorem yblk_apply (c : Dev nD) (t : Fin cfg0.N) (ht : t.val < 64) (r : Fin 1024) :
    yblk m c t (ix1 r)
      = m ((c.tc : Thread nD τ).loc main_arg4) (ix1 (⟨t.val * 1024 + r.val, by have := r.isLt; omega⟩ : Fin 65536)) := by
  have e0 := yblk_index t
  show V m c main_arg4 (((cfg0.win 6).blk t).view.emb (ix1 r)) = _
  refine (congrFun (V_main_arg4 m c) _).trans ?_
  refine congrArg (m ((c.tc : Thread nD τ).loc main_arg4)) ?_
  funext a
  apply Fin.ext
  match a with
  | ⟨0, _⟩ => show win0_6.index t (0 : Fin 1) * 1024 + 1 * r.val = t.val * 1024 + r.val; omega

/-- The indicator array as the host operations before the region leave it: the class table transposed to
    [3, 64], set against the positions 0 … 9 along a new last axis, the comparison's bit read as a float, and the last
    two axes exchanged. -/
theorem indicator_array_eq (c : Dev nD) :
    (V m c main_v8 : S3x10x64.Idx → EReal)
      = transpose S3x10x64 [0, 2, 1]
          (uitofp (F := Ideal) .f32
            (cmpi .eq
              (broadcastInDim S3x64x10 ![0, 1, 2] bcast_S3x64x1_S3x64x10_0_1_2
                (broadcastInDim S3x64x1 ![0, 1] bcast_S3x64_S3x64x1_0_1
                  (transpose S3x64 [1, 0] (m ((c.tc : Thread nD τ).loc main_arg3) : S64x3.Idx → BitVec 32)
                    transposes_S64x3_S3x64_1_0)))
              (broadcastInDim S3x64x10 ![0, 1, 2] bcast_S1x1x10_S3x64x10_0_1_2
                (broadcastInDim S1x1x10 ![2] bcast_S10_S1x1x10_2 (iotaInDim S10 32 0)))))
          transposes_S3x64x10_S3x10x64_0_2_1 := by
  show StableHlo.after hostOps0 (fun b => m (c, b)) (Proc.devRef .tc main_v8) = _
  after_results

/-- A one-bit word read unsigned as an extended real is 1 when the bit is set and 0 otherwise. -/
theorem bit_toNat_coe (b : BitVec 1) : (((b.toNat : ℝ) : EReal)) = if b = 1#1 then 1 else 0 := by
  rcases BitVec.eq_zero_or_eq_one b with h | h <;> subst h
  · rw [if_neg (by decide)]
    show (((0 : ℕ) : ℝ) : EReal) = 0
    rw [Nat.cast_zero, EReal.coe_zero]
  · rw [if_pos rfl]
    show (((1 : ℕ) : ℝ) : EReal) = 1
    rw [Nat.cast_one, EReal.coe_one]

/-- The indicator term at (d, k, c): 1 when entry (c, d) of the class table is the position k, else 0. -/
theorem indicator_array_apply (x3 : S64x3.Idx → BitVec 32) (d : Fin 3) (k : Fin 10) (cc : Fin 64) :
    transpose S3x10x64 [0, 2, 1]
        (uitofp (F := Ideal) .f32
          (cmpi .eq
            (broadcastInDim S3x64x10 ![0, 1, 2] bcast_S3x64x1_S3x64x10_0_1_2
              (broadcastInDim S3x64x1 ![0, 1] bcast_S3x64_S3x64x1_0_1
                (transpose S3x64 [1, 0] x3 transposes_S64x3_S3x64_1_0)))
            (broadcastInDim S3x64x10 ![0, 1, 2] bcast_S1x1x10_S3x64x10_0_1_2
              (broadcastInDim S1x1x10 ![2] bcast_S10_S1x1x10_2 (iotaInDim S10 32 0)))))
        transposes_S3x64x10_S3x10x64_0_2_1 (ix3 d k cc)
      = hot (x3 (ix2 cc d)) k.val := by
  have hl : broadcastInDim S3x64x10 ![0, 1, 2] bcast_S3x64x1_S3x64x10_0_1_2
        (broadcastInDim S3x64x1 ![0, 1] bcast_S3x64_S3x64x1_0_1
          (transpose S3x64 [1, 0] x3 transposes_S64x3_S3x64_1_0)) (ix3 d cc k) = x3 (ix2 cc d) := by
    refine (broadcastInDim_apply _ _ _ (ix3 d cc k) (ix3 d cc (0 : Fin 1)) (fun a => match a with
      | ⟨0, _⟩ => by show d.val = if (3 : Nat) = 1 then 0 else d.val; rw [if_neg (by decide)]
      | ⟨1, _⟩ => by show cc.val = if (64 : Nat) = 1 then 0 else cc.val; rw [if_neg (by decide)]
      | ⟨2, _⟩ => by show 0 = if (1 : Nat) = 1 then 0 else k.val; rw [if_pos rfl])).trans ?_
    refine (broadcastInDim_apply _ _ _ (ix3 d cc (0 : Fin 1)) (ix2 d cc) (fun a => match a with
      | ⟨0, _⟩ => by show d.val = if (3 : Nat) = 1 then 0 else d.val; rw [if_neg (by decide)]
      | ⟨1, _⟩ => by show cc.val = if (64 : Nat) = 1 then 0 else cc.val; rw [if_neg (by decide)])).trans ?_
    exact transpose_apply _ _ _ (ix2 d cc) (ix2 cc d) (fun b => match b with
      | ⟨0, _⟩ => rfl
      | ⟨1, _⟩ => rfl)
  have hr : broadcastInDim S3x64x10 ![0, 1, 2] bcast_S1x1x10_S3x64x10_0_1_2
        (broadcastInDim S1x1x10 ![2] bcast_S10_S1x1x10_2 (iotaInDim S10 32 0)) (ix3 d cc k) = BitVec.ofNat 32 k.val := by
    refine (broadcastInDim_apply _ _ _ (ix3 d cc k) (ix3 (0 : Fin 1) (0 : Fin 1) k) (fun a => match a with
      | ⟨0, _⟩ => by show 0 = if (1 : Nat) = 1 then 0 else d.val; rw [if_pos rfl]
      | ⟨1, _⟩ => by show 0 = if (1 : Nat) = 1 then 0 else cc.val; rw [if_pos rfl]
      | ⟨2, _⟩ => by show k.val = if (10 : Nat) = 1 then 0 else k.val; rw [if_neg (by decide)])).trans ?_
    refine (broadcastInDim_apply _ _ _ (ix3 (0 : Fin 1) (0 : Fin 1) k) (ix1 k) (fun a => match a with
      | ⟨0, _⟩ => by show k.val = if (10 : Nat) = 1 then 0 else k.val; rw [if_neg (by decide)])).trans ?_
    rfl
  refine (transpose_apply _ _ _ (ix3 d k cc) (ix3 d cc k) (fun b => match b with
    | ⟨0, _⟩ => rfl
    | ⟨1, _⟩ => rfl
    | ⟨2, _⟩ => rfl)).trans ?_
  show (((IntOp.cmpi .eq
      (broadcastInDim S3x64x10 ![0, 1, 2] bcast_S3x64x1_S3x64x10_0_1_2
        (broadcastInDim S3x64x1 ![0, 1] bcast_S3x64_S3x64x1_0_1
          (transpose S3x64 [1, 0] x3 transposes_S64x3_S3x64_1_0)) (ix3 d cc k))
      (broadcastInDim S3x64x10 ![0, 1, 2] bcast_S1x1x10_S3x64x10_0_1_2
        (broadcastInDim S1x1x10 ![2] bcast_S10_S1x1x10_2 (iotaInDim S10 32 0)) (ix3 d cc k))).toNat : ℝ) : EReal) = _
  rw [hl, hr, bit_toNat_coe]
  unfold hot
  exact if_congr StableHlo.Predicate.cmpi_eq_iff rfl rfl

/-- The indicator block (the whole [3, 10, 64] array at every point) at (d, k, c). -/
theorem ohblk_apply (c : Dev nD) (t : Fin cfg0.N) (d : Fin 3) (k : Fin 10) (cc : Fin 64) :
    ohblk m c t (ix3 d k cc) = hot (m ((c.tc : Thread nD τ).loc main_arg3) (ix2 cc d)) k.val := by
  obtain ⟨e0, e1, e2⟩ := ohblk_index t
  show V m c main_v8 (((cfg0.win 5).blk t).view.emb (ix3 d k cc)) = _
  have hi : ((cfg0.win 5).blk t).view.emb (ix3 d k cc) = ix3 d k cc := by
    funext a
    apply Fin.ext
    match a with
    | ⟨0, _⟩ => show win0_5.index t (0 : Fin 3) * 3 + 1 * d.val = d.val; omega
    | ⟨1, _⟩ => show win0_5.index t (1 : Fin 3) * 10 + 1 * k.val = k.val; omega
    | ⟨2, _⟩ => show win0_5.index t (2 : Fin 3) * 64 + 1 * cc.val = cc.val; omega
  refine (congrArg (V m c main_v8) hi).trans ?_
  refine (congrFun (indicator_array_eq m c) _).trans ?_
  exact indicator_array_apply (m ((c.tc : Thread nD τ).loc main_arg3)) d k cc

end Cert.KerSide

end
-- ==== Proof.KerTile.lean ====
/-
  What grid point t stores, in terms of the argument arrays: the two entries of its [1, 1, 2] block are the sum of
  the contributions of rows 1024·t … 1024·t + 1023 and the number of those rows whose label is a class.

  The body's softmax, log-softmax and sums of squares are read row by row; its select-and-sum against the indicator
  array is, for every word valid_cp (c, d), the pick of the log-softmax entry the word names (zero when it names
  none): summing a family against a word's indicator picks the entry.
-/
import proofs.«405782_j55946243997877_3_alg».proof.Proof.KerContract
import proofs.«405782_j55946243997877_3_alg».proof.Proof.KerOut
import proofs.«405782_j55946243997877_3_alg».proof.Proof.KerBlocks

noncomputable section

namespace Cert.KerSide

open Cert.KernelIdeal Cert.KernelIdeal.Gen Cert.LossSpec Idealize.ShloMosaic Idealize.ShloMosaic.ValueIdx

variable (m : (ℓ : Loc nD τ sig) → Buf (Elt Ideal) ℓ)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-! ## The three slabs of the [3, 1024, 10] and [3, 10, 64] blocks the body loads -/

theorem ld_pp0 (x4 : Vec Ideal S3x1024x10 .f32) (r : Fin 1024) (k : Fin 10) :
    View.ld x4 r0_1 (ix3 (0 : Fin 1) r k) = x4 (ix3 (0 : Fin 3) r k) := by
  show x4 (r0_1.idx (ix3 (0 : Fin 1) r k)) = _
  refine congrArg x4 (funext fun a => Fin.ext ?_)
  match a with
  | ⟨0, _⟩ => rfl
  | ⟨1, _⟩ => show 0 + 1 * r.val = r.val; omega
  | ⟨2, _⟩ => show 0 + 1 * k.val = k.val; omega

theorem ld_pp1 (x4 : Vec Ideal S3x1024x10 .f32) (r : Fin 1024) (k : Fin 10) :
    View.ld x4 r0_3 (ix3 (0 : Fin 1) r k) = x4 (ix3 (1 : Fin 3) r k) := by
  show x4 (r0_3.idx (ix3 (0 : Fin 1) r k)) = _
  refine congrArg x4 (funext fun a => Fin.ext ?_)
  match a with
  | ⟨0, _⟩ => rfl
  | ⟨1, _⟩ => show 0 + 1 * r.val = r.val; omega
  | ⟨2, _⟩ => show 0 + 1 * k.val = k.val; omega

theorem ld_pp2 (x4 : Vec Ideal S3x1024x10 .f32) (r : Fin 1024) (k : Fin 10) :
    View.ld x4 r0_5 (ix3 (0 : Fin 1) r k) = x4 (ix3 (2 : Fin 3) r k) := by
  show x4 (r0_5.idx (ix3 (0 : Fin 1) r k)) = _
  refine congrArg x4 (funext fun a => Fin.ext ?_)
  match a with
  | ⟨0, _⟩ => rfl
  | ⟨1, _⟩ => show 0 + 1 * r.val = r.val; omega
  | ⟨2, _⟩ => show 0 + 1 * k.val = k.val; omega

theorem ld_oh0 (x5 : Vec Ideal S3x10x64 .f32) (k : Fin 10) (cc : Fin 64) :
    View.ld x5 r0_2 (ix3 (0 : Fin 1) k cc) = x5 (ix3 (0 : Fin 3) k cc) := by
  show x5 (r0_2.idx (ix3 (0 : Fin 1) k cc)) = _
  refine congrArg x5 (funext fun a => Fin.ext ?_)
  match a with
  | ⟨0, _⟩ => rfl
  | ⟨1, _⟩ => show 0 + 1 * k.val = k.val; omega
  | ⟨2, _⟩ => show 0 + 1 * cc.val = cc.val; omega

theorem ld_oh1 (x5 : Vec Ideal S3x10x64 .f32) (k : Fin 10) (cc : Fin 64) :
    View.ld x5 r0_4 (ix3 (0 : Fin 1) k cc) = x5 (ix3 (1 : Fin 3) k cc) := by
  show x5 (r0_4.idx (ix3 (0 : Fin 1) k cc)) = _
  refine congrArg x5 (funext fun a => Fin.ext ?_)
  match a with
  | ⟨0, _⟩ => rfl
  | ⟨1, _⟩ => show 0 + 1 * k.val = k.val; omega
  | ⟨2, _⟩ => show 0 + 1 * cc.val = cc.val; omega

theorem ld_oh2 (x5 : Vec Ideal S3x10x64 .f32) (k : Fin 10) (cc : Fin 64) :
    View.ld x5 r0_6 (ix3 (0 : Fin 1) k cc) = x5 (ix3 (2 : Fin 3) k cc) := by
  show x5 (r0_6.idx (ix3 (0 : Fin 1) k cc)) = _
  refine congrArg x5 (funext fun a => Fin.ext ?_)
  match a with
  | ⟨0, _⟩ => rfl
  | ⟨1, _⟩ => show 0 + 1 * k.val = k.val; omega
  | ⟨2, _⟩ => show 0 + 1 * cc.val = cc.val; omega

/-! ## The row's ingredients at grid point t, row r of the tile (row b = 1024·t + r of the batch) -/

/-- Row r of tile t. -/
abbrev rowOf (t : Fin cfg0.N) (ht : t.val < 64) (r : Fin 1024) : Fin 65536 :=
  ⟨t.val * 1024 + r.val, by have := r.isLt; omega⟩

theorem jp_tile (c : Dev nD) (t : Fin cfg0.N) (ht : t.val < 64) (r : Fin 1024) (cc : Fin 64) :
    k0_pay1 (jpblk m c t) (ix2 r cc) = jpAt (m ((c.tc : Thread nD τ).loc main_arg5)) (rowOf t ht r) cc := by
  rw [pay1_apply]
  unfold jpAt
  refine congrArg (fun f => softmaxAt f cc) (funext fun c' => ?_)
  exact jpblk_apply m c t ht r _

theorem fz_tile (c : Dev nD) (t : Fin cfg0.N) (ht : t.val < 64) (r : Fin 1024) :
    Ideal.exp (Ideal.ofBits .f32 0xBF000000#32 * k0_pay22 (zblk m c t) (ix1 r))
      = fzAt (m ((c.tc : Thread nD τ).loc main_arg0)) (rowOf t ht r) := by
  rw [pay22_apply]
  unfold fzAt gaussAt
  refine congrArg (fun s => Ideal.exp (Ideal.ofBits .f32 0xBF000000#32 * s)) (Finset.sum_congr rfl fun j _ => ?_)
  rw [zblk_apply m c t ht r j]

theorem xz_tile (c : Dev nD) (t : Fin cfg0.N) (ht : t.val < 64) (r : Fin 1024) :
    gaussAt (fun j : Fin 512 => xblk m c t (ix2 r j) - xhblk m c t (ix2 r j))
      = xzAt (m ((c.tc : Thread nD τ).loc main_arg1)) (m ((c.tc : Thread nD τ).loc main_arg2)) (rowOf t ht r) := by
  unfold xzAt
  refine congrArg gaussAt (funext fun j => ?_)
  rw [xblk_apply m c t ht r j, xhblk_apply m c t ht r j]

/-- One dimension's select-and-sum is the pick of the log-softmax entry valid_cp (c, d) names. -/
theorem contr_tile (c : Dev nD) (t : Fin cfg0.N) (ht : t.val < 64) (r : Fin 1024) (cc : Fin 64) (d : Fin 3)
    (a : Vec Ideal S1x1024x10 .f32) (b : Vec Ideal S1x10x64 .f32)
    (ha : ∀ k : Fin 10, a (ix3 (0 : Fin 1) r k) = ppblk m c t (ix3 d r k))
    (hb : ∀ k : Fin 10, b (ix3 (0 : Fin 1) k cc) = ohblk m c t (ix3 d k cc)) :
    (∑ k : Fin 10, logSoftmaxAt (fun k' : Fin 10 => a (ix3 (0 : Fin 1) r k')) k * b (ix3 (0 : Fin 1) k cc))
      = pick (fun k : Fin 10 => lsmAt (m ((c.tc : Thread nD τ).loc main_arg6)) d (rowOf t ht r) k)
          (m ((c.tc : Thread nD τ).loc main_arg3) (ix2 cc d)) := by
  rw [← sum_mul_hot (by norm_num : (10 : ℕ) < 2 ^ 32)]
  refine Finset.sum_congr rfl fun k _ => ?_
  rw [hb k, ohblk_apply m c t d k cc]
  unfold lsmAt
  refine congrArg (fun f => logSoftmaxAt f k * _) (funext fun k' => ?_)
  rw [ha k', ppblk_apply m c t ht d r k']

/-- The body's accumulated log-products at (r, c): Σ_d of the log-softmax entry valid_cp (c, d) names. -/
theorem lp_tile (c : Dev nD) (t : Fin cfg0.N) (ht : t.val < 64) (r : Fin 1024) (cc : Fin 64) :
    k0_pay21
        (k0_pay16
          (k0_pay8 (k0_pay2 (F := Ideal)) (k0_pay3 (View.ld (ppblk m c t) r0_1)) (k0_pay4 (View.ld (ohblk m c t) r0_2)) (k0_pay5 (View.ld (ppblk m c t) r0_1) (View.ld (ohblk m c t) r0_2)) (k0_pay6 (View.ld (ohblk m c t) r0_2)) (k0_pay7 (View.ld (ppblk m c t) r0_1)))
          (k0_pay11 (k0_pay9 (View.ld (ppblk m c t) r0_3)) (k0_pay10 (View.ld (ppblk m c t) r0_3)) (Scalar.ofBits .f32 0xFF800000#32))
          (k0_pay12 (View.ld (ohblk m c t) r0_4))
          (k0_pay13 (k0_pay9 (View.ld (ppblk m c t) r0_3)) (k0_pay10 (View.ld (ppblk m c t) r0_3)) (Scalar.ofBits .f32 0xFF800000#32) (View.ld (ohblk m c t) r0_4))
          (k0_pay14 (k0_pay9 (View.ld (ppblk m c t) r0_3)) (k0_pay10 (View.ld (ppblk m c t) r0_3)) (Scalar.ofBits .f32 0xFF800000#32))
          (k0_pay15 (View.ld (ohblk m c t) r0_4)))
        (k0_pay17 (View.ld (ppblk m c t) r0_5)) (k0_pay18 (View.ld (ohblk m c t) r0_6)) (k0_pay19 (View.ld (ppblk m c t) r0_5) (View.ld (ohblk m c t) r0_6)) (k0_pay20 (View.ld (ppblk m c t) r0_5)) (ix2 r cc)
      = logProdsAt (m ((c.tc : Thread nD τ).loc main_arg3)) (m ((c.tc : Thread nD τ).loc main_arg6)) (rowOf t ht r) cc := by
  rw [logprods_apply]
  unfold logProdsAt
  rw [Fin.sum_univ_three,
    contr_tile m c t ht r cc 0 _ _ (fun k => ld_pp0 _ r k) (fun k => ld_oh0 _ k cc),
    contr_tile m c t ht r cc 1 _ _ (fun k => ld_pp1 _ r k) (fun k => ld_oh1 _ k cc),
    contr_tile m c t ht r cc 2 _ _ (fun k => ld_pp2 _ r k) (fun k => ld_oh2 _ k cc)]

/-! ## What the point stores -/

/-- The [1, 1, 2] block grid point t stores is block t of the per-tile array of sums and counts. -/
theorem tile_out (c : Dev nD) (t : Fin cfg0.N) (ht : t.val < 64)
    (hy : ∀ i : S65536.Idx, (m ((c.tc : Thread nD τ).loc main_arg4) i).toNat < 2 ^ 31) (j : Fin 2) :
    out0_7 (zblk m c t) (xblk m c t) (xhblk m c t) (jpblk m c t) (ppblk m c t) (ohblk m c t) (yblk m c t)
        (ix3 (0 : Fin 1) (0 : Fin 1) j)
      = tileOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (ix3 (⟨t.val, ht⟩ : Fin 64) (0 : Fin 1) j) := by
  unfold out0_7
  rw [View.canon_unit_zero zero3]
  rw [View.ld_unit_zero (S := S1024x65) zero2, View.ld_unit_zero (S := S1024x128) zero2,
    View.ld_unit_zero (S := S1024x512) zero2, View.ld_unit_zero (S := S1024x512) zero2,
    View.ld_unit_zero (S := S1024) zero1]
  have hyb : ∀ r : Fin 1024, (yblk m c t (ix1 r)).toNat < 2 ^ 31 := fun r => by
    rw [yblk_apply m c t ht r]; exact hy _
  unfold tileOut
  match j with
  | ⟨0, _⟩ =>
    refine (pay23_sum _ _ _ _ _ _ hyb).trans ?_
    rw [if_pos rfl]
    unfold tileSum rowTerm
    refine Finset.sum_congr rfl fun r _ => ?_
    rw [yblk_apply m c t ht r]
    refine congrArg (fun f => pick f _) (funext fun cc => ?_)
    unfold lossAt
    rw [jp_tile m c t ht r cc, xz_tile m c t ht r, fz_tile m c t ht r, lp_tile m c t ht r cc]
  | ⟨1, _⟩ =>
    refine (pay23_cnt _ _ _ _ _ _ hyb).trans ?_
    rw [if_neg (by show ¬ (1 = 0); omega)]
    unfold tileCnt rowMask
    refine Finset.sum_congr rfl fun r _ => ?_
    rw [yblk_apply m c t ht r]

end Cert.KerSide

end
-- ==== Proof.IdxSums.lean ====
/-
  A sum over the indices of a rank-1 shape is the sum over its one coordinate.
-/
import Idealize.ShloMosaic.Lib.ValueIdx
import Mathlib.Algebra.BigOperators.Fin

namespace Cert.LossSpec

open Idealize.ShloMosaic Idealize.ShloMosaic.ValueIdx

/-- The indices of a rank-1 shape are their one coordinate. -/
def idxEquiv1 {n : Nat} : (⟨1, ![n]⟩ : Shape).Idx ≃ Fin n where
  toFun j := j 0
  invFun k := ix1 k
  left_inv j := (eq_ix1 j).symm
  right_inv _ := rfl

theorem sum_idx1 {M : Type*} [AddCommMonoid M] {n : Nat} (f : (⟨1, ![n]⟩ : Shape).Idx → M) :
    ∑ j, f j = ∑ k : Fin n, f (ix1 k) :=
  (Equiv.sum_comp (idxEquiv1 (n := n)).symm f).symm

end Cert.LossSpec
-- ==== Proof.KerTail.lean ====
/-
  The host operations after the region: the per-tile sums and counts are sliced out of the [64, 1, 2] array, each
  summed over the 64 tiles, and the result is |S| / n when n > 0, else |S|. Applied to the array of per-tile sums
  and counts of the specification this is the closing of the total and the count: a sum over the 65536 rows is
  the sum over the 64 tiles of the sums over each tile's 1024 rows.
-/
import proofs.«405782_j55946243997877_3_alg».proof.Proof.Gen.KernelIdeal.Frame
import proofs.«405782_j55946243997877_3_alg».proof.Proof.Spec
import proofs.«405782_j55946243997877_3_alg».proof.Proof.IdxSums
import Idealize.ShloMosaic.Lib.Pipeline.Value
import Idealize.ShloMosaic.Lib.StableHlo.Run
import Idealize.ShloMosaic.PureOps.Ideal.Laws

noncomputable section

namespace Cert.KerSide

open Cert.KernelIdeal Cert.KernelIdeal.Gen Cert.LossSpec Idealize.ShloMosaic Idealize.ShloMosaic.ValueIdx
open Idealize.ShloMosaic.StableHlo Idealize.ShloMosaic.TcCoe Idealize.SL.Sem

/-- The twelve host operations after the region and the closing select, as one function of the per-tile array. -/
def tailFn (o : (⟨S64x1x2, .f32⟩ : BufTy).Contents (Elt Ideal)) : (⟨S_, .f32⟩ : BufTy).Contents (Elt Ideal) :=
  select
    (cmpf (F := Ideal) .ogt
      (Host.reduceAdd (F := Ideal) (shapeCast S64 (extractStridedSlice S64x1x1 ![0, 0, 1] o slices_S64x1x2_S64x1x1_0_0_1) shapeCasts_S64x1x1_S64)
        (constant (F := Ideal) S_ .f32 0x00000000#32) reducesTo_S64_S_d0 h_S_)
      (constant (F := Ideal) S_ .f32 0x00000000#32))
    (Host.divf (F := Ideal)
      (Host.absf (F := Ideal) (Host.reduceAdd (F := Ideal) (shapeCast S64 (extractStridedSlice S64x1x1 ![0, 0, 0] o slices_S64x1x2_S64x1x1_0_0_0) shapeCasts_S64x1x1_S64)
        (constant (F := Ideal) S_ .f32 0x00000000#32) reducesTo_S64_S_d0 h_S_))
      (Host.reduceAdd (F := Ideal) (shapeCast S64 (extractStridedSlice S64x1x1 ![0, 0, 1] o slices_S64x1x2_S64x1x1_0_0_1) shapeCasts_S64x1x1_S64)
        (constant (F := Ideal) S_ .f32 0x00000000#32) reducesTo_S64_S_d0 h_S_))
    (Host.absf (F := Ideal) (Host.reduceAdd (F := Ideal) (shapeCast S64 (extractStridedSlice S64x1x1 ![0, 0, 0] o slices_S64x1x2_S64x1x1_0_0_0) shapeCasts_S64x1x1_S64)
      (constant (F := Ideal) S_ .f32 0x00000000#32) reducesTo_S64_S_d0 h_S_))

/-- After the operations that follow the region, the result buffer holds that function of the per-tile array's buffer. -/
theorem tail_after (W : Valuation τ sig (Elt Ideal)) :
    StableHlo.after ((hostOps1 (F := Ideal)) ++ hostOps1_1) W (Proc.devRef .tc main_v19) = tailFn (W (Proc.devRef .tc main_v9)) := by
  simp only [hostOps1, hostOps1_1, List.cons_append, List.nil_append]
  after_results
  rfl

/-- The host's sum of a [64] vector from zero is the sum of its 64 entries. -/
theorem sum64 (y : (⟨S64, .f32⟩ : BufTy).Contents (Elt Ideal)) (i : S_.Idx) :
    Host.reduceAdd (F := Ideal) y (constant (F := Ideal) S_ .f32 0x00000000#32) reducesTo_S64_S_d0 h_S_ i
      = ∑ t : Fin 64, y (ix1 t) := by
  simp only [Host.reduceAdd, Ideal.hostReduceAdd_def]
  refine (Ideal.hostReduceAdd_total reducesTo_S64_S_d0 (fun b => b.elim0) y _ i).trans ?_
  rw [constant_apply, Ideal.ofBits_zero_f32, zero_add]
  exact sum_idx1 y

/-- Column j of the per-tile array, as a [64] vector, at tile t. -/
theorem col_apply (o : (⟨S64x1x2, .f32⟩ : BufTy).Contents (Elt Ideal)) (j : Fin 2) (h : S64x1x2.Slices ![0, 0, j.val] S64x1x1)
    (t : Fin 64) :
    shapeCast S64 (extractStridedSlice S64x1x1 ![0, 0, j.val] o h) shapeCasts_S64x1x1_S64 (ix1 t) = o (ix3 t (0 : Fin 1) j) := by
  refine (shapeCast_apply _ shapeCasts_S64x1x1_S64 (ix1 t) (ix3 t (0 : Fin 1) (0 : Fin 1))
    (by rewrite [Shape.rowMajor_val_three, Shape.rowMajor_val_one]; show (t.val * 1 + 0) * 1 + 0 = t.val; omega)).trans ?_
  exact extractStridedSlice_apply ![0, 0, j.val] o h (ix3 t (0 : Fin 1) (0 : Fin 1)) (ix3 t (0 : Fin 1) j) (fun a => match a with
    | ⟨0, _⟩ => by show t.val = 0 + t.val; omega
    | ⟨1, _⟩ => by show 0 = 0 + 0; omega
    | ⟨2, _⟩ => by show j.val = j.val + 0; omega)

section Arrays

variable (Z : (⟨S65536x128, .f32⟩ : BufTy).Contents (Elt Ideal)) (X Xh : (⟨S65536x512, .f32⟩ : BufTy).Contents (Elt Ideal))
  (vcp : (⟨S64x3, .i32⟩ : BufTy).Contents (Elt Ideal)) (Y : (⟨S65536, .i32⟩ : BufTy).Contents (Elt Ideal))
  (JP : (⟨S65536x65, .f32⟩ : BufTy).Contents (Elt Ideal)) (PP : (⟨S3x65536x10, .f32⟩ : BufTy).Contents (Elt Ideal))

/-- The tail of the specification's per-tile array is the closing of the total and the count. -/
theorem tailFn_tileOut :
    tailFn (tileOut Z X Xh vcp Y JP PP) = fun _ => closing (total Z X Xh vcp Y JP PP) (count Y) := by
  funext i
  have hS : Host.reduceAdd (F := Ideal) (shapeCast S64 (extractStridedSlice S64x1x1 ![0, 0, 0] (tileOut Z X Xh vcp Y JP PP) slices_S64x1x2_S64x1x1_0_0_0) shapeCasts_S64x1x1_S64)
      (constant (F := Ideal) S_ .f32 0x00000000#32) reducesTo_S64_S_d0 h_S_ i = total Z X Xh vcp Y JP PP := by
    rw [sum64, total_eq_tiles]
    refine Finset.sum_congr rfl fun t _ => ?_
    refine (col_apply _ (0 : Fin 2) slices_S64x1x2_S64x1x1_0_0_0 t).trans ?_
    unfold tileOut
    exact if_pos rfl
  have hN : Host.reduceAdd (F := Ideal) (shapeCast S64 (extractStridedSlice S64x1x1 ![0, 0, 1] (tileOut Z X Xh vcp Y JP PP) slices_S64x1x2_S64x1x1_0_0_1) shapeCasts_S64x1x1_S64)
      (constant (F := Ideal) S_ .f32 0x00000000#32) reducesTo_S64_S_d0 h_S_ i = count Y := by
    rw [sum64, count_eq_tiles]
    refine Finset.sum_congr rfl fun t _ => ?_
    refine (col_apply _ (1 : Fin 2) slices_S64x1x2_S64x1x1_0_0_1 t).trans ?_
    unfold tileOut
    exact if_neg (by show ¬ (1 = 0); omega)
  unfold tailFn closing
  show Scalar.select (FloatOps.cmpf .ogt _ _) (FloatOps.hostDivf (FloatOps.hostAbsf _) _) (FloatOps.hostAbsf _) = _
  rw [hS, hN]
  rfl

end Arrays

end Cert.KerSide

end
-- ==== Proof.KerFinal.lean ====
/-
  The kernel's run, read: grid point t writes back block t of the per-tile array (its [1, 1, 2] block sits at row t),
  the 64 blocks cover the [64, 1, 2] array, so after the region the array is the specification's per-tile sums and
  counts; the host operations after the region then leave the closing of the total and the count in the result,
  and the arguments are as they were.
-/
import proofs.«405782_j55946243997877_3_alg».proof.Proof.KerTile
import proofs.«405782_j55946243997877_3_alg».proof.Proof.KerTail

noncomputable section

namespace Cert.KerSide

open Cert.KernelIdeal Cert.KernelIdeal.Gen Cert.LossSpec Idealize.ShloMosaic Idealize.ShloMosaic.ValueIdx
open Idealize.ShloMosaic.StableHlo Idealize.ShloMosaic.TcCoe Idealize.SL.Sem
open Idealize.ShloMosaic.Pipeline (Dat Cfg Window)

variable (m : (ℓ : Loc nD τ sig) → Buf (Elt Ideal) ℓ) (ρ : Dev nD → PrngReg)

/-- The specification's per-tile array of core c's arguments. -/
abbrev tiles (c : Dev nD) : (⟨S64x1x2, .f32⟩ : BufTy).Contents (Elt Ideal) :=
  tileOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The output window's index map over the grid: block t sits at (t, 0, 0). -/
theorem out_index : ∀ t : Fin cfg0.N, win0_7.index t (0 : Fin 3) = t.val ∧ win0_7.index t (1 : Fin 3) = 0
    ∧ win0_7.index t (2 : Fin 3) = 0 :=
  (by decide +kernel : ∀ t : Fin grid0.N, _)

/-- What grid point t writes back is block t of the per-tile array. -/
theorem flushed_tiles (c : Dev nD)
    (hy : ∀ i : S65536.Idx, (m ((c.tc : Thread nD τ).loc main_arg4) i).toNat < 2 ^ 31) (t : Fin cfg0.N) :
    (dats m 0 c).flushed 7 t = ((cfg0.win 7).blk t).view.read (Elt Ideal) (tiles m c) := by
  have ht : t.val < 64 := lt_of_lt_of_eq t.isLt (show cfg0.N = 64 from N_0)
  obtain ⟨e0, e1, e2⟩ := out_index t
  show (cfg0.win 7).cut (grid0.coords t) ((dats m 0 c).after 7 t) = _
  rw [after0_7]
  funext y
  have hy0 : y = ix3 (0 : Fin 1) (0 : Fin 1) (⟨(y 2).val, (y 2).isLt⟩ : Fin 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  show out0_7 (zblk m c t) (xblk m c t) (xhblk m c t) (jpblk m c t) (ppblk m c t) (ohblk m c t) (yblk m c t) y
      = tiles m c (((cfg0.win 7).blk t).view.emb y)
  rw [hy0, tile_out m c t ht hy]
  refine congrArg (tiles m c) (funext fun a => Fin.ext ?_)
  match a with
  | ⟨0, _⟩ => show t.val = win0_7.index t (0 : Fin 3) * 1 + 1 * 0; omega
  | ⟨1, _⟩ => show 0 = win0_7.index t (1 : Fin 3) * 1 + 1 * 0; omega
  | ⟨2, _⟩ => show (y 2).val = win0_7.index t (2 : Fin 3) * 2 + 1 * (y 2).val; omega

/-- Every entry of the [64, 1, 2] array lies in the block of the point its row names. -/
theorem cover_tiles (i : S64x1x2.Idx) :
    ∃ t : Fin cfg0.N, (cfg0.win 7).flush t = true ∧ i ∈ ((cfg0.win 7).blk t).view.set := by
  have h0 : (i 0).val < 64 := (i 0).isLt
  have h1 : (i 1).val < 1 := (i 1).isLt
  have h2 : (i 2).val < 2 := (i 2).isLt
  let t : Fin cfg0.N := ⟨(i 0).val, by rw [show cfg0.N = 64 from N_0]; exact h0⟩
  obtain ⟨e0, e1, e2⟩ := out_index t
  refine ⟨t, flush0_7 t, ?_⟩
  show i ∈ ((View.whole main_v9).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; have : t.val = (i 0).val := rfl; omega
  | ⟨1, _⟩ => show win0_7.index t (1 : Fin 3) * 1 ≤ (i 1).val ∧ (i 1).val < win0_7.index t (1 : Fin 3) * 1 + 1; omega
  | ⟨2, _⟩ => show win0_7.index t (2 : Fin 3) * 2 ≤ (i 2).val ∧ (i 2).val < win0_7.index t (2 : Fin 3) * 2 + 2; omega

/-- The per-tile array after the region. -/
theorem final_tiles (c : Dev nD) (hy : ∀ i : S65536.Idx, (m ((c.tc : Thread nD τ).loc main_arg4) i).toNat < 2 ^ 31) :
    (dats m 0 c).arrAt 7 cfg0.N = tiles m c :=
  (dats m 0 c).arrAt_eq_of_cover 7 (tiles m c) (fun t _ => flushed_tiles m c hy t) cover_tiles

/-- The result buffer after the host operations that follow the region. -/
theorem tail_value (c : Dev nD) (hy : ∀ i : S65536.Idx, (m ((c.tc : Thread nD τ).loc main_arg4) i).toNat < 2 ^ 31) :
    Pipeline.afterTail₀ cfgs (dats m) 0 (V0 m) [hostOps1, hostOps1_1] c main_v19
      = fun _ => closing (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (count (m ((c.tc : Thread nD τ).loc main_arg4))) := by
  unfold Pipeline.afterTail₀
  simp only [List.flatten_cons, List.flatten_nil, List.append_nil]
  rw [tail_after]
  rw [show Pipeline.withArrays (cfgs 0).spec c (V0 m c) (fun w => (dats m 0 c).arrAt w (cfgs 0).N) (Proc.devRef .tc main_v9) = tiles m c from
    (Pipeline.withArrays_arr spec0 launch0.win.arr_inj c _ _ 7).trans (final_tiles m c hy)]
  exact tailFn_tileOut _ _ _ _ _ _ _

/-- THE KERNEL'S RUN: every weakly fair execution terminates with the result at the closing of the total and the
    count of the arguments, and the arguments unchanged, when every label is non-negative. -/
theorem run (hy : ∀ (c : Dev nD) (i : S65536.Idx), (m ((c.tc : Thread nD τ).loc main_arg4) i).toNat < 2 ^ 31) :
    θ_run defs (onTc (τ := τ) (main (F := Ideal))) ⟨m, fun _ => 0, ρ⟩ (fun r => ∀ c : Dev nD,
      r.2.mem ((c.tc : Thread nD τ).loc main_v19) = (fun _ => closing (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (count (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v19 (Pipeline.mem_restRefs_of main_v19 (by decide) (by decide))).trans (tail_value m c (hy c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 6).trans (((dats m 0 c).arrAt_in 6 rfl _).trans ((A_eq m c 6).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩)
    (run_main m ρ)

end Cert.KerSide

end
-- ==== Proof.RefSoft.lean ====
/-
  The reference's four row-wise stages, each read at an index: the joint softmax, the per-dimension log-softmax,
  and the two Gaussian factors exp(-½‖Z b‖²), exp(-½‖X b - X̂ b‖²).
-/
import proofs.«405782_j55946243997877_3_alg».proof.Proof.RefStages
import proofs.«405782_j55946243997877_3_alg».proof.Proof.Spec

noncomputable section

namespace Cert.RefSide

open Cert.ReferenceIdeal Cert.ReferenceIdeal.ReadP Cert.LossSpec Idealize.ShloMosaic Idealize.ShloMosaic.ValueIdx

/-- Row b's first 64 joint logits: the family the joint softmax is taken over. -/
abbrev jointRow (x5 : (⟨S65536x65, .f32⟩ : BufTy).Contents (Elt Ideal)) (b : Fin 65536) : Fin 64 → EReal :=
  fun c' : Fin 64 => x5 (ix2 b (⟨c'.val, by have := c'.isLt; omega⟩ : Fin 65))

/-- Stage %1 (the maximum of row b's first 64 joint logits, folded from the -∞ pattern) at b. -/
theorem rowMax_jp (x5 : (⟨S65536x65, .f32⟩ : BufTy).Contents (Elt Ideal)) (b : Fin 65536) :
    val_main_v1 (F := Ideal) x5 (ix1 b)
      = (Finset.univ : Finset (Fin 64)).fold max (Ideal.ofBits .f32 0xFF800000#32) (jointRow x5 b) := by
  unfold val_main_v1
  have h : S65536x64.Reduces [1] S65536 := by decide
  refine (Host.reduce_eq_fold_single (FloatOps.maximumf (F := Ideal) (φ := .f32)) (val_main_v0 (F := Ideal) x5) _
    Gen.reducesTo_S65536x64_S65536_d1 h Gen.h_S_ (ix1 b)).trans ?_
  rw [val_main_cst_apply]
  show Finset.fold max (Ideal.ofBits .f32 0xFF800000#32) _ (Finset.univ : Finset (Fin 64)) = _
  refine Finset.fold_congr fun k _ => ?_
  show val_main_v0 (F := Ideal) x5 _ = _
  rw [val_main_v0_apply]
  exact congrArg x5 (funext fun a => Fin.ext (by match a with | ⟨0, _⟩ => rfl | ⟨1, _⟩ => rfl))

/-- Stage %3 (the maximum joined once more with the -∞ pattern) at b: the shift of row b's softmax. -/
theorem shift_jp (x5 : (⟨S65536x65, .f32⟩ : BufTy).Contents (Elt Ideal)) (b : Fin 65536) :
    val_main_v3 (F := Ideal) x5 (ix1 b) = shift (jointRow x5 b) := by
  rw [val_main_v3_apply, val_main_v2_apply, val_main_cst_0_apply, rowMax_jp]
  rfl

/-- Stage %7 (the exponential of the shifted logit) at (b, c). -/
theorem exp_jp (x5 : (⟨S65536x65, .f32⟩ : BufTy).Contents (Elt Ideal)) (b : Fin 65536) (c : Fin 64) :
    val_main_v7 (F := Ideal) x5 (ix2 b c) = Ideal.exp (jointRow x5 b c - shift (jointRow x5 b)) := by
  rw [val_main_v7_apply, val_main_v6_apply, val_main_v0_apply, val_main_v5_apply, val_main_v4_apply]
  have e : idx_main_v4 (idx_main_v5 (ix2 b c)) = ix1 b := by
    funext a; match a with | ⟨0, _⟩ => rfl
  rw [e, shift_jp]
  have e0 : idx_main_v0 (ix2 b c) = ix2 b (⟨c.val, by have := c.isLt; omega⟩ : Fin 65) := by
    funext a; match a with | ⟨0, _⟩ => rfl | ⟨1, _⟩ => rfl
  rw [e0]
  rfl

/-- Stage %11 (the softmax of the first 64 joint logits) at (b, c). -/
theorem ref_jp (x5 : (⟨S65536x65, .f32⟩ : BufTy).Contents (Elt Ideal)) (b : Fin 65536) (c : Fin 64) :
    val_main_v11 (F := Ideal) x5 (ix2 b c) = jpAt x5 b c := by
  rw [val_main_v11_apply, val_main_v10_apply, val_main_v9_apply, val_main_v8_apply, val_main_cst_1_apply, exp_jp]
  show Ideal.div _ (Ideal.ofBits .f32 0x00000000#32 + ∑ k : Fin 64, _) = softmaxAt (jointRow x5 b) c
  rw [Ideal.ofBits_zero_f32, zero_add]
  unfold softmaxAt
  refine congrArg (Ideal.div _) (Finset.sum_congr rfl fun k _ => ?_)
  have e : idx_main_v8 (idx_main_v9 (idx_main_v10 (ix2 b c))) k = ix2 b k := by
    funext a; match a with | ⟨0, _⟩ => rfl | ⟨1, _⟩ => rfl
  rw [e, exp_jp]

/-- Row b's ten logits of dimension d: the family that dimension's softmax is taken over. -/
abbrev dimRow (x6 : (⟨S3x65536x10, .f32⟩ : BufTy).Contents (Elt Ideal)) (d : Fin 3) (b : Fin 65536) : Fin 10 → EReal :=
  fun k' : Fin 10 => x6 (ix3 d b k')

/-- Stage %12 (the maximum of row b's ten logits of dimension d, folded from the -∞ pattern) at (d, b). -/
theorem rowMax_lsm (x6 : (⟨S3x65536x10, .f32⟩ : BufTy).Contents (Elt Ideal)) (d : Fin 3) (b : Fin 65536) :
    val_main_v12 (F := Ideal) x6 (ix2 d b)
      = (Finset.univ : Finset (Fin 10)).fold max (Ideal.ofBits .f32 0xFF800000#32) (dimRow x6 d b) := by
  unfold val_main_v12
  have h : S3x65536x10.Reduces [2] S3x65536 := by decide
  refine (Host.reduce_eq_fold_single (FloatOps.maximumf (F := Ideal) (φ := .f32)) x6 _
    Gen.reducesTo_S3x65536x10_S3x65536_d2 h Gen.h_S_ (ix2 d b)).trans ?_
  rw [val_main_cst_2_apply]
  show Finset.fold max (Ideal.ofBits .f32 0xFF800000#32) _ (Finset.univ : Finset (Fin 10)) = _
  refine Finset.fold_congr fun k _ => ?_
  exact congrArg x6 (funext fun a => Fin.ext (by match a with | ⟨0, _⟩ => rfl | ⟨1, _⟩ => rfl | ⟨2, _⟩ => rfl))

/-- Stage %14 (the maximum joined once more with the -∞ pattern) at (d, b): the shift of that softmax. -/
theorem shift_lsm (x6 : (⟨S3x65536x10, .f32⟩ : BufTy).Contents (Elt Ideal)) (d : Fin 3) (b : Fin 65536) :
    val_main_v14 (F := Ideal) x6 (ix2 d b) = shift (dimRow x6 d b) := by
  rw [val_main_v14_apply, val_main_v13_apply, val_main_cst_3_apply, rowMax_lsm]
  rfl

/-- Stage %18 (the exponential of the shifted logit) at (d, b, k). -/
theorem exp_lsm (x6 : (⟨S3x65536x10, .f32⟩ : BufTy).Contents (Elt Ideal)) (d : Fin 3) (b : Fin 65536) (k : Fin 10) :
    val_main_v18 (F := Ideal) x6 (ix3 d b k) = Ideal.exp (dimRow x6 d b k - shift (dimRow x6 d b)) := by
  rw [val_main_v18_apply, val_main_v17_apply, val_main_v16_apply, val_main_v15_apply]
  have e : idx_main_v15 (idx_main_v16 (ix3 d b k)) = ix2 d b := by
    funext a; match a with | ⟨0, _⟩ => rfl | ⟨1, _⟩ => rfl
  rw [e, shift_lsm]
  rfl

/-- Stage %25 (log (softmax + ε) over the last axis) at (d, b, k). -/
theorem ref_lsm (x6 : (⟨S3x65536x10, .f32⟩ : BufTy).Contents (Elt Ideal)) (d : Fin 3) (b : Fin 65536) (k : Fin 10) :
    val_main_v25 (F := Ideal) x6 (ix3 d b k) = lsmAt x6 d b k := by
  rw [val_main_v25_apply, val_main_v24_apply, val_main_v23_apply, val_main_cst_5_apply, val_main_v22_apply,
    val_main_v21_apply, val_main_v20_apply, val_main_v19_apply, val_main_cst_4_apply, exp_lsm]
  show Ideal.log (Ideal.div _ (Ideal.ofBits .f32 0x00000000#32 + ∑ k' : Fin 10, _) + Ideal.ofBits .f32 0x322BCC77#32)
    = logSoftmaxAt (dimRow x6 d b) k
  rw [Ideal.ofBits_zero_f32, zero_add]
  unfold logSoftmaxAt softmaxAt
  refine congrArg (fun s => Ideal.log (Ideal.div _ s + Ideal.ofBits .f32 0x322BCC77#32)) (Finset.sum_congr rfl fun k' _ => ?_)
  have e : idx_main_v19 (idx_main_v20 (idx_main_v21 (ix3 d b k))) k' = ix3 d b k' := by
    funext a; match a with | ⟨0, _⟩ => rfl | ⟨1, _⟩ => rfl | ⟨2, _⟩ => rfl
  rw [e, exp_lsm]

/-- Stage %40 (exp(-½ Σ Z²), kept as a column) at (b, 0). -/
theorem ref_fz (x0 : (⟨S65536x128, .f32⟩ : BufTy).Contents (Elt Ideal)) (b : Fin 65536) :
    val_main_v40 (F := Ideal) x0 (ix2 b (0 : Fin 1)) = fzAt x0 b := by
  rw [val_main_v40_apply, val_main_v39_apply, val_main_v38_apply, val_main_cst_9_apply, val_main_v37_apply,
    val_main_v36_apply, val_main_cst_8_apply]
  unfold fzAt gaussAt
  show Ideal.exp (Ideal.ofBits .f32 0xBF000000#32 * (Ideal.ofBits .f32 0x00000000#32 + ∑ k : Fin 128, _)) = _
  rw [Ideal.ofBits_zero_f32, zero_add]
  refine congrArg (fun s => Ideal.exp (Ideal.ofBits .f32 0xBF000000#32 * s)) (Finset.sum_congr rfl fun k _ => ?_)
  rw [val_main_v35_apply]
  have e : idx_main_v36 (idx_main_v37 (ix2 b (0 : Fin 1))) k = ix2 b k := by
    funext a; match a with | ⟨0, _⟩ => rfl | ⟨1, _⟩ => rfl
  rw [e]
  rfl

/-- Stage %47 (exp(-½ Σ (X - X̂)²), kept as a column) at (b, 0). -/
theorem ref_xz (x1 x2 : (⟨S65536x512, .f32⟩ : BufTy).Contents (Elt Ideal)) (b : Fin 65536) :
    val_main_v47 (F := Ideal) x1 x2 (ix2 b (0 : Fin 1)) = xzAt x1 x2 b := by
  rw [val_main_v47_apply, val_main_v46_apply, val_main_v45_apply, val_main_cst_11_apply, val_main_v44_apply,
    val_main_v43_apply, val_main_cst_10_apply]
  unfold xzAt gaussAt
  show Ideal.exp (Ideal.ofBits .f32 0xBF000000#32 * (Ideal.ofBits .f32 0x00000000#32 + ∑ k : Fin 512, _)) = _
  rw [Ideal.ofBits_zero_f32, zero_add]
  refine congrArg (fun s => Ideal.exp (Ideal.ofBits .f32 0xBF000000#32 * s)) (Finset.sum_congr rfl fun k _ => ?_)
  rw [val_main_v42_apply, val_main_v41_apply]
  have e : idx_main_v43 (idx_main_v44 (ix2 b (0 : Fin 1))) k = ix2 b k := by
    funext a; match a with | ⟨0, _⟩ => rfl | ⟨1, _⟩ => rfl
  rw [e]
  rfl

end Cert.RefSide

end
-- ==== Proof.RefLoss.lean ====
/-
  The reference's loss matrix at an index: the gather of the log-softmax at the positions valid_cp names, summed
  over the three dimensions, and the product that makes entry (b, c) of the loss.
-/
import proofs.«405782_j55946243997877_3_alg».proof.Proof.RefSoft
import Idealize.ShloMosaic.Lib.StableHlo.Predicate

noncomputable section

namespace Cert.RefSide

open Cert.ReferenceIdeal Cert.ReferenceIdeal.ReadP Cert.LossSpec Idealize.ShloMosaic Idealize.ShloMosaic.ValueIdx

/-- The gather of one position per (dimension, class) out of a [3, 65536, 10] array, read at (d, b, c): the operand at
    (d, b, k), where k is the start index at (d, c, 0) read as a signed integer and clamped into [0, 9]. The first axis is a
    batching axis (the result's d), the second is taken whole (the result's b), the third is collapsed and start-indexed. -/
theorem gather_read {α : Type} {w : Nat} (x : S3x65536x10.Idx → α) (idx : IVec S3x64x1 w)
    (d : Fin 3) (b : Fin 65536) (c : Fin 64) (k : Fin 10)
    (hk : k.val = min (idx (ix3 d c (0 : Fin 1))).toInt.toNat 9) :
    Host.gather gather_S3x65536x10_S3x64x1_S3x65536x64_1_2_0_0_2_2_1655361 x idx (ix3 d b c) = x (ix3 d b k) := by
  unfold Host.gather
  refine congrArg x (funext fun a => Fin.ext ?_)
  match a with
  | ⟨0, _⟩ =>
    show (0 + d.val + 0 : Nat) = d.val
    omega
  | ⟨1, _⟩ =>
    show (0 + 0 + b.val : Nat) = b.val
    omega
  | ⟨2, _⟩ =>
    -- the start index is read at the result's batch coordinates (d, c), component 0 of the index vector
    have hsi : gather_S3x65536x10_S3x64x1_S3x65536x64_1_2_0_0_2_2_1655361.siIdx (ix3 d b c)
        ⟨List.idxOf (2 : Fin 3) gather_S3x65536x10_S3x64x1_S3x65536x64_1_2_0_0_2_2_1655361.startIndexMap,
          List.idxOf_lt_length_iff.2 (List.mem_singleton.mpr rfl)⟩ = ix3 d c (0 : Fin 1) := by
      funext e
      refine Fin.ext ?_
      match e with
      | ⟨0, _⟩ => rfl
      | ⟨1, _⟩ => rfl
      | ⟨2, _⟩ => rfl
    show min (idx (gather_S3x65536x10_S3x64x1_S3x65536x64_1_2_0_0_2_2_1655361.siIdx (ix3 d b c)
        ⟨List.idxOf (2 : Fin 3) gather_S3x65536x10_S3x64x1_S3x65536x64_1_2_0_0_2_2_1655361.startIndexMap,
          List.idxOf_lt_length_iff.2 (List.mem_singleton.mpr rfl)⟩)).toInt.toNat 9 + 0 + 0 = k.val
    rw [hsi, hk]
    rfl

/-- An entry of valid_cp below 10 is not negative as a signed word, so the wrap of negative indices keeps it: stage %32
    (the start indices) at (d, c, 0) is valid_cp at (c, d). -/
theorem start_index_read (x3 : (⟨S64x3, .i32⟩ : BufTy).Contents (Elt Ideal)) (hv : ∀ i : S64x3.Idx, (x3 i).toNat < 10)
    (d : Fin 3) (c : Fin 64) :
    val_main_v32 (F := Ideal) x3 (ix3 d c (0 : Fin 1)) = x3 (ix2 c d) := by
  have hi : idx_main_v26 (idx_main_v32 (ix3 d c (0 : Fin 1))) = ix2 c d := by
    funext a
    match a with
    | ⟨0, _⟩ => rfl
    | ⟨1, _⟩ => rfl
  have hlt := hv (ix2 c d)
  have h0 : IntOp.cmpi .slt (x3 (ix2 c d)) 0#32 = 0#1 := by
    refine eq_zero_of_ne_one fun h => ?_
    exact Nat.not_lt_zero _ ((StableHlo.Predicate.slt_iff_toNat (by omega) (by decide)).mp h)
  rw [val_main_v32_apply, val_main_v31_apply, val_main_v28_apply, val_main_v26_apply, val_main_v27_apply,
    val_main_c_apply, hi, h0, select_zero]

/-- Stage %34 (Σ_d of the gathered log-softmax) at (b, c), when every entry of valid_cp is a position below 10. -/
theorem ref_logprods (x3 : (⟨S64x3, .i32⟩ : BufTy).Contents (Elt Ideal)) (x6 : (⟨S3x65536x10, .f32⟩ : BufTy).Contents (Elt Ideal))
    (hv : ∀ i : S64x3.Idx, (x3 i).toNat < 10) (b : Fin 65536) (c : Fin 64) :
    val_main_v34 (F := Ideal) x3 x6 (ix2 b c) = logProdsAt x3 x6 b c := by
  rw [val_main_v34_apply, val_main_cst_7_apply, Ideal.ofBits_def, Ideal.ofBits_zero_f32]
  unfold logProdsAt
  refine (zero_add _).trans (Finset.sum_congr rfl fun d _ => ?_)
  have hidx : idx_main_v34 (ix2 b c) d = ix3 d b c := by
    funext a
    match a with
    | ⟨0, _⟩ => rfl
    | ⟨1, _⟩ => rfl
    | ⟨2, _⟩ => rfl
  have hlt := hv (ix2 c d)
  -- the clamp into [0, 9] is the identity on a word below 10
  have hk : (⟨(x3 (ix2 c d)).toNat, hlt⟩ : Fin 10).val
      = min (val_main_v32 (F := Ideal) x3 (ix3 d c (0 : Fin 1))).toInt.toNat 9 := by
    rw [start_index_read x3 hv, StableHlo.Predicate.toInt_eq_toNat_of_lt (by omega), Int.toNat_natCast]
    show (x3 (ix2 c d)).toNat = _
    omega
  rw [hidx]
  unfold val_main_v33
  rw [gather_read _ _ d b c _ hk, ref_lsm]
  unfold pick
  rw [dif_pos hlt]

/-- Stage %56 (the loss matrix) at (b, c). -/
theorem ref_loss (x0 : (⟨S65536x128, .f32⟩ : BufTy).Contents (Elt Ideal)) (x1 x2 : (⟨S65536x512, .f32⟩ : BufTy).Contents (Elt Ideal))
    (x3 : (⟨S64x3, .i32⟩ : BufTy).Contents (Elt Ideal)) (x5 : (⟨S65536x65, .f32⟩ : BufTy).Contents (Elt Ideal))
    (x6 : (⟨S3x65536x10, .f32⟩ : BufTy).Contents (Elt Ideal))
    (hv : ∀ i : S64x3.Idx, (x3 i).toNat < 10) (b : Fin 65536) (c : Fin 64) :
    val_main_v56 (F := Ideal) x0 x1 x2 x3 x5 x6 (ix2 b c) = lossAt x0 x1 x2 x3 x5 x6 b c := by
  have h48 : idx_main_v48 (ix2 b c) = ix2 b (0 : Fin 1) := by
    funext a
    match a with
    | ⟨0, _⟩ => rfl
    | ⟨1, _⟩ => rfl
  have h50 : idx_main_v50 (ix2 b c) = ix2 b (0 : Fin 1) := by
    funext a
    match a with
    | ⟨0, _⟩ => rfl
    | ⟨1, _⟩ => rfl
  rw [val_main_v56_apply, val_main_v51_apply, val_main_v49_apply, val_main_v48_apply, val_main_v50_apply,
    val_main_v55_apply, val_main_v54_apply, val_main_v53_apply, val_main_v52_apply, val_main_cst_12_apply,
    h48, h50, ref_jp, ref_xz, ref_fz, ref_logprods x3 x6 hv]
  rfl

end Cert.RefSide

end
-- ==== Proof.RefTail.lean ====
/-
  The reference's last stages: the row's pick of its label's loss (take_along_axis under the label mask), the
  number of class-labelled rows (an integer sum, then converted), and the result.
-/
import proofs.«405782_j55946243997877_3_alg».proof.Proof.RefLoss
import proofs.«405782_j55946243997877_3_alg».proof.Proof.IdxSums
import Idealize.ShloMosaic.Lib.StableHlo.Predicate
import Idealize.ShloMosaic.PureOps.Reduce
import Idealize.ShloMosaic.PureOps.Ideal.Laws
import Mathlib.Data.EReal.Basic
import Mathlib.Data.Finset.Fold
import Mathlib.Algebra.Order.BigOperators.Group.Finset

noncomputable section

namespace Cert.RefSide

open Cert.ReferenceIdeal Cert.ReferenceIdeal.ReadP Cert.LossSpec Idealize.ShloMosaic Idealize.ShloMosaic.ValueIdx
open Idealize.ShloMosaic.StableHlo.Predicate

/-! ## Words and folds the three stages read -/

namespace Tail

/-- The label mask at row b is set exactly when the label, a non-negative word, is below 64. -/
theorem mask_bit (x4 : (⟨S65536, .i32⟩ : BufTy).Contents (Elt Ideal)) (hy : ∀ i : S65536.Idx, (x4 i).toNat < 2 ^ 31) (b : Fin 65536) :
    val_main_v58 (F := Ideal) x4 (ix1 b) = 1#1 ↔ (x4 (ix1 b)).toNat < 64 := by
  show IntOp.cmpi .slt (x4 (ix1 b)) (val_main_v57 (F := Ideal) (ix1 b)) = 1#1 ↔ _
  rw [val_main_v57_apply]
  exact slt_iff_toNat (hy _) (show (64#32 : BitVec 32).toNat < 2 ^ 31 by decide)

/-- The gather of take_along_axis at (b, 0): row b of the operand at the start index of row b, read signed and
    clamped into [0, 63]. -/
theorem gather_row {α : Type} (x : S65536x64.Idx → α) (idx : IVec S65536x1x1 32) (b : Fin 65536) :
    Host.gather gather_S65536x64_S65536x1x1_S65536x1_n_1_0_0_1_2_11 x idx (ix2 b (0 : Fin 1))
      = x (ix2 b (⟨min (idx (ix3 b (0 : Fin 1) (0 : Fin 1))).toInt.toNat 63, by omega⟩ : Fin 64)) := by
  unfold Host.gather
  refine congrArg x ?_
  funext a
  match a with
  | ⟨0, _⟩ =>
    refine Fin.ext ?_
    show gather_S65536x64_S65536x1x1_S65536x1_n_1_0_0_1_2_11.start (ix2 b (0 : Fin 1)) idx 0
        + gather_S65536x64_S65536x1x1_S65536x1_n_1_0_0_1_2_11.batchCoord (ix2 b (0 : Fin 1)) 0
        + gather_S65536x64_S65536x1x1_S65536x1_n_1_0_0_1_2_11.offCoord (ix2 b (0 : Fin 1)) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    refine Fin.ext ?_
    show gather_S65536x64_S65536x1x1_S65536x1_n_1_0_0_1_2_11.start (ix2 b (0 : Fin 1)) idx 1
        + gather_S65536x64_S65536x1x1_S65536x1_n_1_0_0_1_2_11.batchCoord (ix2 b (0 : Fin 1)) 1
        + gather_S65536x64_S65536x1x1_S65536x1_n_1_0_0_1_2_11.offCoord (ix2 b (0 : Fin 1)) 1 = _
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S65536x64_S65536x1x1_S65536x1_n_1_0_0_1_2_11.startIndexMap from List.mem_singleton.mpr rfl)]
    have hsi : gather_S65536x64_S65536x1x1_S65536x1_n_1_0_0_1_2_11.siIdx (ix2 b (0 : Fin 1))
        ⟨List.idxOf (1 : Fin 2) gather_S65536x64_S65536x1x1_S65536x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- y_safe at row b, when the label is below 64: the label. -/
theorem ysafe_of_lt (x4 : (⟨S65536, .i32⟩ : BufTy).Contents (Elt Ideal)) (hy : ∀ i : S65536.Idx, (x4 i).toNat < 2 ^ 31) (b : Fin 65536)
    (hlt : (x4 (ix1 b)).toNat < 64) : val_main_v59 (F := Ideal) x4 (ix1 b) = x4 (ix1 b) := by
  show Scalar.select (val_main_v58 (F := Ideal) x4 (ix1 b)) (x4 (ix1 b)) (val_main_call0_v1 (F := Ideal) (ix1 b)) = _
  rw [(mask_bit x4 hy b).mpr hlt]
  exact select_one _ _

/-- The start index of take_along_axis at row b, when the label is below 64: the label itself (a non-negative index
    is not wrapped). -/
theorem start_of_lt (x4 : (⟨S65536, .i32⟩ : BufTy).Contents (Elt Ideal)) (hy : ∀ i : S65536.Idx, (x4 i).toNat < 2 ^ 31) (b : Fin 65536)
    (hlt : (x4 (ix1 b)).toNat < 64) :
    val_main_call1_v5 (F := Ideal) x4 (ix3 b (0 : Fin 1) (0 : Fin 1)) = x4 (ix1 b) := by
  have h5 : idx_main_call1_v5 (ix3 b (0 : Fin 1) (0 : Fin 1)) = ix2 b (0 : Fin 1) := by
    funext a
    match a with
    | ⟨0, _⟩ => exact Fin.ext (by show ((b.val * 1 + 0) * 1 + 0) / 1 = b.val; omega)
    | ⟨1, _⟩ => rfl
  have h60i : idx_main_v60 (ix2 b (0 : Fin 1)) = ix1 b := by
    funext a
    match a with
    | ⟨0, _⟩ => rfl
  have h60 : val_main_v60 (F := Ideal) x4 (ix2 b (0 : Fin 1)) = x4 (ix1 b) := by
    rw [val_main_v60_apply, h60i, ysafe_of_lt x4 hy b hlt]
  have h1 : val_main_call1_v1 (F := Ideal) x4 (ix2 b (0 : Fin 1)) = 0#1 := by
    refine eq_zero_of_ne_one ?_
    show ¬ IntOp.cmpi .slt (val_main_v60 (F := Ideal) x4 (ix2 b (0 : Fin 1))) (val_main_call1_v0 (F := Ideal) (ix2 b (0 : Fin 1))) = 1#1
    rw [h60, val_main_call1_v0_apply]
    intro h
    exact absurd ((slt_iff_toNat (hy _) (show (0#32 : BitVec 32).toNat < 2 ^ 31 by decide)).mp h) (Nat.not_lt_zero _)
  rw [val_main_call1_v5_apply, h5]
  show Scalar.select (val_main_call1_v1 (F := Ideal) x4 (ix2 b (0 : Fin 1))) (val_main_call1_v3 (F := Ideal) x4 (ix2 b (0 : Fin 1)))
    (val_main_v60 (F := Ideal) x4 (ix2 b (0 : Fin 1))) = _
  rw [h1, select_zero, h60]

/-- A fold over a one-element range is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- The in-bounds bit of take_along_axis at row b, when the label is below 64: set. -/
theorem inbounds_of_lt (x4 : (⟨S65536, .i32⟩ : BufTy).Contents (Elt Ideal)) (hy : ∀ i : S65536.Idx, (x4 i).toNat < 2 ^ 31) (b : Fin 65536)
    (hlt : (x4 (ix1 b)).toNat < 64) : val_main_call1_v12 (F := Ideal) x4 (ix2 b (0 : Fin 1)) = 1#1 := by
  have hR : S65536x1x1.Reduces [2] S65536x1 := by decide
  have hl : hR.lift (ix2 b (0 : Fin 1)) (0 : Fin 1) = ix3 b (0 : Fin 1) (0 : Fin 1) := by
    funext c
    match c with
    | ⟨0, _⟩ => rfl
    | ⟨1, _⟩ => rfl
    | ⟨2, _⟩ => rfl
  have h11 : val_main_call1_v11 (F := Ideal) x4 (ix3 b (0 : Fin 1) (0 : Fin 1)) = 1#1 := by
    show IntOp.andi (IntOp.cmpi .sge (val_main_call1_v5 (F := Ideal) x4 (ix3 b (0 : Fin 1) (0 : Fin 1))) (val_main_call1_v6 (F := Ideal) (ix3 b (0 : Fin 1) (0 : Fin 1))))
      (IntOp.cmpi .sle (val_main_call1_v5 (F := Ideal) x4 (ix3 b (0 : Fin 1) (0 : Fin 1))) (val_main_call1_v9 (F := Ideal) (ix3 b (0 : Fin 1) (0 : Fin 1)))) = 1#1
    rw [start_of_lt x4 hy b hlt, val_main_call1_v6_apply, val_main_call1_v9_apply, val_main_call1_v8_apply,
      val_main_call1_c_2_apply, val_main_call1_c_1_apply]
    rw [(sge_iff_toNat (hy _) (show (0#32 : BitVec 32).toNat < 2 ^ 31 by decide)).mpr (Nat.zero_le _),
      (sle_iff_toNat (hy _) (show (63#32 : BitVec 32).toNat < 2 ^ 31 by decide)).mpr (show (x4 (ix1 b)).toNat ≤ 63 by omega)]
    rfl
  unfold val_main_call1_v12
  refine (Host.reduce_eq_fold_single IntOp.andi _ _ Facts₀.reducesTo_S65536x1x1_S65536x1_d2 hR Facts₀.h_S_ (ix2 b (0 : Fin 1))).trans ?_
  refine (fold_fin_one IntOp.andi _ _).trans ?_
  show IntOp.andi (val_main_call1_v11 (F := Ideal) x4 (hR.lift (ix2 b (0 : Fin 1)) (0 : Fin 1))) 1#1 = 1#1
  rw [hl, h11]
  rfl

/-- The cast of a natural-number sum into the extended reals is the sum of the casts. -/
theorem coe_nat_sum {ι : Type} (S : Finset ι) (f : ι → ℕ) :
    (((∑ i ∈ S, f i : ℕ) : ℝ) : EReal) = ∑ i ∈ S, (((f i : ℕ) : ℝ) : EReal) := by
  classical
  induction S using Finset.induction_on with
  | empty => simp
  | insert a S ha ih =>
    rw [Finset.sum_insert ha, Finset.sum_insert ha, Nat.cast_add, EReal.coe_add, ih]

end Tail

open Tail

/-! ## The three stages -/

/-- Stage %63 (where(mask, take_along_axis(loss, y_safe), 0)) at row b. -/
theorem ref_rowterm (x0 : (⟨S65536x128, .f32⟩ : BufTy).Contents (Elt Ideal)) (x1 x2 : (⟨S65536x512, .f32⟩ : BufTy).Contents (Elt Ideal))
    (x3 : (⟨S64x3, .i32⟩ : BufTy).Contents (Elt Ideal)) (x4 : (⟨S65536, .i32⟩ : BufTy).Contents (Elt Ideal))
    (x5 : (⟨S65536x65, .f32⟩ : BufTy).Contents (Elt Ideal)) (x6 : (⟨S3x65536x10, .f32⟩ : BufTy).Contents (Elt Ideal))
    (hv : ∀ i : S64x3.Idx, (x3 i).toNat < 10) (hy : ∀ i : S65536.Idx, (x4 i).toNat < 2 ^ 31) (b : Fin 65536) :
    val_main_v63 (F := Ideal) x0 x1 x2 x3 x4 x5 x6 (ix1 b) = rowTerm x0 x1 x2 x3 x4 x5 x6 b := by
  show Scalar.select (val_main_v58 (F := Ideal) x4 (ix1 b)) (val_main_v62 (F := Ideal) x0 x1 x2 x3 x4 x5 x6 (ix1 b))
    (val_main_call2_v1 (F := Ideal) (ix1 b)) = _
  unfold rowTerm pick
  by_cases hlt : (x4 (ix1 b)).toNat < 64
  · -- a class label: the mask is set, the index is in bounds and unclamped, the gather reads the label's loss
    rw [dif_pos hlt, (mask_bit x4 hy b).mpr hlt, select_one]
    have h62 : idx_main_v62 (ix1 b) = ix2 b (0 : Fin 1) := by
      funext a
      match a with
      | ⟨0, _⟩ => exact Fin.ext (by show b.val / 1 = b.val; omega)
      | ⟨1, _⟩ => rfl
    rw [val_main_v62_apply, h62]
    show Scalar.select (val_main_call1_v12 (F := Ideal) x4 (ix2 b (0 : Fin 1)))
      (val_main_call1_v13 (F := Ideal) x0 x1 x2 x3 x4 x5 x6 (ix2 b (0 : Fin 1))) (val_main_call1_v14 (F := Ideal) (ix2 b (0 : Fin 1))) = _
    rw [inbounds_of_lt x4 hy b hlt, select_one]
    unfold val_main_call1_v13
    refine (gather_row _ _ b).trans ?_
    refine (congrArg (val_main_v56 (F := Ideal) x0 x1 x2 x3 x5 x6)
      (congrArg (ix2 b) (Fin.ext ?_ : _ = (⟨(x4 (ix1 b)).toNat, hlt⟩ : Fin 64)))).trans (ref_loss x0 x1 x2 x3 x5 x6 hv b _)
    show min (val_main_call1_v5 (F := Ideal) x4 (ix3 b (0 : Fin 1) (0 : Fin 1))).toInt.toNat 63 = (x4 (ix1 b)).toNat
    rw [start_of_lt x4 hy b hlt, toInt_eq_toNat_of_lt (hy _), Int.toNat_natCast]
    omega
  · -- no class: the mask is clear and the row contributes the constant 0
    rw [dif_neg hlt, eq_zero_of_ne_one (fun h => hlt ((mask_bit x4 hy b).mp h)), select_zero, val_main_call2_v1_apply]
    exact Ideal.ofBits_zero_f32

/-- Stage %68 (the count of class-labelled rows, as a float). -/
theorem ref_count (x4 : (⟨S65536, .i32⟩ : BufTy).Contents (Elt Ideal)) (hy : ∀ i : S65536.Idx, (x4 i).toNat < 2 ^ 31) :
    val_main_v68 (F := Ideal) x4 ix0 = count x4 := by
  classical
  have hbit : ∀ k : Fin 65536, (val_main_v66 (F := Ideal) x4 (ix1 k)).toNat = if (x4 (ix1 k)).toNat < 64 then 1 else 0 := by
    intro k
    show ((val_main_v58 (F := Ideal) x4 (ix1 k)).setWidth 32).toNat = _
    rw [toNat_setWidth_bit]
    exact if_congr (mask_bit x4 hy k) rfl rfl
  have hfold : val_main_v67 (F := Ideal) x4 ix0
      = (Finset.univ : Finset S65536.Idx).fold IntOp.addi 0#32 (val_main_v66 (F := Ideal) x4) := by
    unfold val_main_v67
    refine (Host.reduce_eq_fold IntOp.addi _ _ Facts₀.reducesTo_S65536_S_d0 Facts₀.h_S_ ix0).trans ?_
    rw [Finset.filter_true_of_mem fun i _ => funext fun a => a.elim0]
    rfl
  have hsum : ∑ i : S65536.Idx, (val_main_v66 (F := Ideal) x4 i).toNat = ∑ k : Fin 65536, if (x4 (ix1 k)).toNat < 64 then 1 else 0 := by
    rw [sum_idx1]
    exact Finset.sum_congr rfl fun k _ => hbit k
  have hle : ∑ k : Fin 65536, (if (x4 (ix1 k)).toNat < 64 then 1 else 0 : ℕ) ≤ 65536 := by
    refine (Finset.sum_le_sum (fun k _ => (by split <;> omega : (if (x4 (ix1 k)).toNat < 64 then 1 else 0 : ℕ) ≤ 1))).trans ?_
    simp
  have hnat : (val_main_v67 (F := Ideal) x4 ix0).toNat = ∑ k : Fin 65536, if (x4 (ix1 k)).toNat < 64 then 1 else 0 := by
    rw [hfold, toNat_fold_addi _ _ (by rw [hsum]; omega), hsum]
  show ((((val_main_v67 (F := Ideal) x4 ix0).toInt : ℤ) : ℝ) : EReal) = _
  rw [toInt_eq_toNat_of_lt (by rw [hnat]; omega), hnat, Int.cast_natCast, coe_nat_sum]
  unfold LossSpec.count rowMask
  refine Finset.sum_congr rfl fun k _ => ?_
  split <;> simp

/-- The reference's result. -/
theorem ref_value (x0 : (⟨S65536x128, .f32⟩ : BufTy).Contents (Elt Ideal)) (x1 x2 : (⟨S65536x512, .f32⟩ : BufTy).Contents (Elt Ideal))
    (x3 : (⟨S64x3, .i32⟩ : BufTy).Contents (Elt Ideal)) (x4 : (⟨S65536, .i32⟩ : BufTy).Contents (Elt Ideal))
    (x5 : (⟨S65536x65, .f32⟩ : BufTy).Contents (Elt Ideal)) (x6 : (⟨S3x65536x10, .f32⟩ : BufTy).Contents (Elt Ideal))
    (hv : ∀ i : S64x3.Idx, (x3 i).toNat < 10) (hy : ∀ i : S65536.Idx, (x4 i).toNat < 2 ^ 31) :
    val_main_v71 (F := Ideal) x0 x1 x2 x3 x4 x5 x6 = fun _ => closing (total x0 x1 x2 x3 x4 x5 x6) (count x4) := by
  funext i
  obtain rfl : i = ix0 := eq_ix0 i
  -- the sum of the masked picks over every row is the specification's total
  have h64 : val_main_v64 (F := Ideal) x0 x1 x2 x3 x4 x5 x6 ix0 = total x0 x1 x2 x3 x4 x5 x6 := by
    rw [val_main_v64_apply, sum_idx1, val_main_cst_16_apply]
    show Ideal.ofBits .f32 0x00000000#32 + _ = _
    rw [Ideal.ofBits_zero_f32, zero_add]
    unfold total
    exact Finset.sum_congr rfl fun b _ => ref_rowterm x0 x1 x2 x3 x4 x5 x6 hv hy b
  rw [val_main_v71_apply, val_main_v69_apply, val_main_v70_apply, val_main_v65_apply, h64, ref_count x4 hy]
  rfl

end Cert.RefSide

end
-- ==== Proof.lean ====
/-
  The certificate's five claims.

  The three frames: the two kernels' are the generated frame certificates; the reference has no kernel, and its
  frame is its run with the result dropped.

  The value claim: under the precondition — every float input finite, every entry of valid_cp a position 0 … 9 and
  every label non-negative — both programs end with the same extended real in their result: the absolute value of
  the sum over the 65536 rows of the loss at the row's label (for labels below 64), divided by the number of such
  rows when there is one. The kernel reaches it tile by tile (64 grid points of 1024 rows, each storing its partial
  sum and count, which the host operations after the region add up); the reference in one pass. The two index
  conjuncts are what makes the kernel's compare-and-sum against an indicator the reference's gather: a word that
  names no position selects nothing in the kernel, while the reference's gather wraps or clamps it.
  Finiteness is not used: on the extended reals 0 · x = 0, x · 1 = x and 0 + x = x hold outright, and sums regroup
  freely.
-/
import proofs.«405782_j55946243997877_3_alg».proof.Defs
import proofs.«405782_j55946243997877_3_alg».proof.Proof.Gen.Kernel
import proofs.«405782_j55946243997877_3_alg».proof.Proof.Gen.Kernel.Frame
import proofs.«405782_j55946243997877_3_alg».proof.Proof.Gen.KernelIdeal
import proofs.«405782_j55946243997877_3_alg».proof.Proof.Gen.KernelIdeal.Frame
import proofs.«405782_j55946243997877_3_alg».proof.Proof.Gen.ReferenceIdeal
import proofs.«405782_j55946243997877_3_alg».proof.Proof.Gen.Pre_finite_inputs
import proofs.«405782_j55946243997877_3_alg».proof.Proof.PreFacts
import proofs.«405782_j55946243997877_3_alg».proof.Proof.KerFinal
import proofs.«405782_j55946243997877_3_alg».proof.Proof.RefTail
import Idealize.ShloMosaic.Adequacy
import Idealize.ShloMosaic.Init

noncomputable section

namespace Cert.Proof

open Idealize.ShloMosaic Idealize.SL.Sem Cert.LossSpec

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RunP.run (F := Ideal) m ρ)

/-- Both runs end at the closing of the total and the count of the (agreeing) arguments. -/
theorem algebraic [Cert.KernelIdeal.Facts] [Cert.ReferenceIdeal.Facts] [Cert.Pre_finite_inputs.Facts] :
    Cert.algebraic_KernelIdeal_ReferenceIdeal := by
  intro m ρ m' ρ' hpre hagree
  have hv : ∀ (c : Dev Cert.KernelIdeal.nD) i, ((m ((c.tc : Thread Cert.KernelIdeal.nD Cert.KernelIdeal.τ).loc Cert.KernelIdeal.main_arg3)) i).toNat < 10 :=
    fun c => Cert.PreFacts.vcp_lt _ _ _ _ _ _ _ (hpre c)
  have hy : ∀ (c : Dev Cert.KernelIdeal.nD) i, ((m ((c.tc : Thread Cert.KernelIdeal.nD Cert.KernelIdeal.τ).loc Cert.KernelIdeal.main_arg4)) i).toNat < 2 ^ 31 :=
    fun c => Cert.PreFacts.y_nonneg _ _ _ _ _ _ _ (hpre c)
  refine ⟨fun c => fun _ => closing (total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (count (m ((c.tc : Thread Cert.KernelIdeal.nD Cert.KernelIdeal.τ).loc Cert.KernelIdeal.main_arg4))),
    Cert.KerSide.run m ρ hy, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6⟩ := hagree c
  rw [Cert.ReferenceIdeal.ReadP.val_main_v71_eq,
    Cert.RefSide.ref_value _ _ _ _ _ _ _ (by rw [a3]; exact hv c) (by rw [a4]; exact hy c),
    a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
